-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x4 : Shape := ⟨2, ![16777216, 4]⟩
abbrev S16777216x1 : Shape := ⟨2, ![16777216, 1]⟩
abbrev S16777216 : Shape := ⟨1, ![16777216]⟩
abbrev S_ : Shape := ⟨0, ![]⟩

class Facts : Prop where
  slices_S16777216x4_S16777216x1_0_0 : S16777216x4.Slices ![0, 0] S16777216x1
  shapeCasts_S16777216x1_S16777216 : S16777216x1.ShapeCasts S16777216
  slices_S16777216x4_S16777216x1_0_1 : S16777216x4.Slices ![0, 1] S16777216x1
  slices_S16777216x4_S16777216x1_0_3 : S16777216x4.Slices ![0, 3] S16777216x1
  bcast_S_S16777216x4 : S_.BroadcastsInDim S16777216x4 (![] : Fin 0 → Fin S16777216x4.rank)
  reducesTo_S16777216x4_S_d0_1 : S16777216x4.ReducesTo [0, 1] S_
  h_S_ : 0 < S_.numel
  bcast_S_S16777216 : S_.BroadcastsInDim S16777216 (![] : Fin 0 → Fin S16777216.rank)
  reducesTo_S16777216_S_d0 : S16777216.ReducesTo [0] S_

variable [Facts]

def fn_part1 {F : FTy → Type} [FloatOps F] (main_v3 : FVec F S16777216 .f32) (main_v5 : FVec F S16777216 .f32) (main_v17 : IVec S_ 1) : IVec S_ 1 :=
  let main_cst_4 : FVec F S_ .f32 := constant S_ .f32 0x00000000#32
  let main_v18 : FVec F S16777216 .f32 := broadcastInDim S16777216 ![] bcast_S_S16777216 main_cst_4
  let main_v19 : IVec S16777216 1 := cmpf .oge main_v3 main_v18
  let main_c_5 : IVec S_ 1 := constantI S_ 1 1#1
  let main_v20 : IVec S_ 1 := (fun x v => Host.reduce IntOp.andi x v reducesTo_S16777216_S_d0 h_S_) main_v19 main_c_5
  let main_v21 : IVec S_ 1 := andi main_v17 main_v20
  let main_cst_6 : FVec F S_ .f32 := constant S_ .f32 0x43F00000#32
  let main_v22 : FVec F S16777216 .f32 := broadcastInDim S16777216 ![] bcast_S_S16777216 main_cst_6
  let main_v23 : IVec S16777216 1 := cmpf .olt main_v3 main_v22
  let main_c_7 : IVec S_ 1 := constantI S_ 1 1#1
  let main_v24 : IVec S_ 1 := (fun x v => Host.reduce IntOp.andi x v reducesTo_S16777216_S_d0 h_S_) main_v23 main_c_7
  let main_v25 : IVec S_ 1 := andi main_v21 main_v24
  let main_v26 : FVec F S16777216 .f32 := Host.floor main_v3
  let main_v27 : IVec S16777216 1 := cmpf .oeq main_v3 main_v26
  let main_c_8 : IVec S_ 1 := constantI S_ 1 1#1
  let main_v28 : IVec S_ 1 := (fun x v => Host.reduce IntOp.andi x v reducesTo_S16777216_S_d0 h_S_) main_v27 main_c_8
  let main_v29 : IVec S_ 1 := andi main_v25 main_v28
  let main_v30 : FVec F S16777216 .f32 := Host.absf main_v5
  let main_cst_9 : FVec F S_ .f32 := constant S_ .f32 0x3F800000#32
  let main_v31 : FVec F S16777216 .f32 := broadcastInDim S16777216 ![] bcast_S_S16777216 main_cst_9
  let main_v32 : IVec S16777216 1 := cmpf .oeq main_v30 main_v31
  let main_c_10 : IVec S_ 1 := constantI S_ 1 1#1
  let main_v33 : IVec S_ 1 := (fun x v => Host.reduce IntOp.andi x v reducesTo_S16777216_S_d0 h_S_) main_v32 main_c_10
  let main_v34 : IVec S_ 1 := andi main_v29 main_v33
  main_v34

def fn {F : FTy → Type} [FloatOps F] (main_arg0 : FVec F S16777216x4 .f32) : IVec S_ 1 :=
  let main_v0 : FVec F S16777216x1 .f32 := (extractStridedSlice S16777216x1 ![0, 0] · slices_S16777216x4_S16777216x1_0_0) main_arg0
  let main_v1 : FVec F S16777216 .f32 := shapeCast S16777216 main_v0 shapeCasts_S16777216x1_S16777216
  let main_v2 : FVec F S16777216x1 .f32 := (extractStridedSlice S16777216x1 ![0, 1] · slices_S16777216x4_S16777216x1_0_1) main_arg0
  let main_v3 : FVec F S16777216 .f32 := shapeCast S16777216 main_v2 shapeCasts_S16777216x1_S16777216
  let main_v4 : FVec F S16777216x1 .f32 := (extractStridedSlice S16777216x1 ![0, 3] · slices_S16777216x4_S16777216x1_0_3) main_arg0
  let main_v5 : FVec F S16777216 .f32 := shapeCast S16777216 main_v4 shapeCasts_S16777216x1_S16777216
  let main_v6 : FVec F S16777216x4 .f32 := Host.absf main_arg0
  let main_cst : FVec F S_ .f32 := constant S_ .f32 0x7F800000#32
  let main_v7 : FVec F S16777216x4 .f32 := broadcastInDim S16777216x4 ![] bcast_S_S16777216x4 main_cst
  let main_v8 : IVec S16777216x4 1 := cmpf .olt main_v6 main_v7
  let main_c : IVec S_ 1 := constantI S_ 1 1#1
  let main_v9 : IVec S_ 1 := (fun x v => Host.reduce IntOp.andi x v reducesTo_S16777216x4_S_d0_1 h_S_) main_v8 main_c
  let main_cst_0 : FVec F S_ .f32 := constant S_ .f32 0x00000000#32
  let main_v10 : FVec F S16777216 .f32 := broadcastInDim S16777216 ![] bcast_S_S16777216 main_cst_0
  let main_v11 : IVec S16777216 1 := cmpf .oge main_v1 main_v10
  let main_c_1 : IVec S_ 1 := constantI S_ 1 1#1
  let main_v12 : IVec S_ 1 := (fun x v => Host.reduce IntOp.andi x v reducesTo_S16777216_S_d0 h_S_) main_v11 main_c_1
  let main_v13 : IVec S_ 1 := andi main_v9 main_v12
  let main_cst_2 : FVec F S_ .f32 := constant S_ .f32 0x44200000#32
  let main_v14 : FVec F S16777216 .f32 := broadcastInDim S16777216 ![] bcast_S_S16777216 main_cst_2
  let main_v15 : IVec S16777216 1 := cmpf .olt main_v1 main_v14
  let main_c_3 : IVec S_ 1 := constantI S_ 1 1#1
  let main_v16 : IVec S_ 1 := (fun x v => Host.reduce IntOp.andi x v reducesTo_S16777216_S_d0 h_S_) main_v15 main_c_3
  let main_v17 : IVec S_ 1 := andi main_v13 main_v16
  fn_part1 (F := F) main_v3 main_v5 main_v17
-- ==== Kernel.lean ====
abbrev S16777216x4 : Shape := ⟨2, ![16777216, 4]⟩
abbrev S2x4800x128 : Shape := ⟨3, ![2, 4800, 128]⟩
abbrev S2048x4 : Shape := ⟨2, ![2048, 4]⟩
abbrev S1x4800x128 : Shape := ⟨3, ![1, 4800, 128]⟩
abbrev S4800x128 : Shape := ⟨2, ![4800, 128]⟩
abbrev S2048x1 : Shape := ⟨2, ![2048, 1]⟩
abbrev S2048 : Shape := ⟨1, ![2048]⟩
abbrev S4800x1 : Shape := ⟨2, ![4800, 1]⟩
abbrev S1x2048 : Shape := ⟨2, ![1, 2048]⟩
abbrev S4800x2048 : Shape := ⟨2, ![4800, 2048]⟩
abbrev S1x128 : Shape := ⟨2, ![1, 128]⟩
abbrev S2048x128 : Shape := ⟨2, ![2048, 128]⟩
abbrev S_ : Shape := ⟨0, ![]⟩
abbrev S2x480x640 : Shape := ⟨3, ![2, 480, 640]⟩
abbrev S1x2x480x640 : Shape := ⟨4, ![1, 2, 480, 640]⟩

abbrev nBuf : Space → Nat
  | .hbm => 17
  | .vmem => 5
  | .smem => 0
  | _ => 0

abbrev bufTy : (tb : Table) → Fin (tcTables nBuf tb) → BufTy
  | .hbm, ⟨0, _⟩ => ⟨S16777216x4, .f32⟩
  | .hbm, ⟨1, _⟩ => ⟨S2x4800x128, .f32⟩
  | .hbm, ⟨2, _⟩ => ⟨S1x4800x128, .f32⟩
  | .hbm, ⟨3, _⟩ => ⟨S4800x128, .f32⟩
  | .hbm, ⟨4, _⟩ => ⟨S1x4800x128, .f32⟩
  | .hbm, ⟨5, _⟩ => ⟨S4800x128, .f32⟩
  | .hbm, ⟨6, _⟩ => ⟨S4800x128, .f32⟩
  | .hbm, ⟨7, _⟩ => ⟨S_, .f32⟩
  | .hbm, ⟨8, _⟩ => ⟨S4800x128, .f32⟩
  | .hbm, ⟨9, _⟩ => ⟨S4800x128, .i1⟩
  | .hbm, ⟨10, _⟩ => ⟨S_, .f32⟩
  | .hbm, ⟨11, _⟩ => ⟨S_, .f32⟩
  | .hbm, ⟨12, _⟩ => ⟨S4800x128, .f32⟩
  | .hbm, ⟨13, _⟩ => ⟨S4800x128, .f32⟩
  | .hbm, ⟨14, _⟩ => ⟨S4800x128, .f32⟩
  | .hbm, ⟨15, _⟩ => ⟨S2x480x640, .f32⟩
  | .hbm, ⟨16, _⟩ => ⟨S1x2x480x640, .f32⟩
  | .local _ .vmem, ⟨0, _⟩ => ⟨S2048x4, .f32⟩
  | .local _ .vmem, ⟨1, _⟩ => ⟨S2048x4, .f32⟩
  | .local _ .vmem, ⟨2, _⟩ => ⟨S1x4800x128, .f32⟩
  | .local _ .vmem, ⟨3, _⟩ => ⟨S1x4800x128, .f32⟩
  | .local _ .vmem, ⟨4, _⟩ => ⟨S4800x128, .f32⟩
  | _, _ => ⟨S16777216x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4096], ![false, false]⟩

def k0_cond2 (i : grid0.Coords) : BitVec 1 :=
  let arg1 : BitVec 32 := BitVec.ofNat 32 (i 1).val
  let c4095_i32 : BitVec 32 := 4095#32
  let v49 : BitVec 1 := Scalar.cmpi .eq arg1 c4095_i32
  let v50 : BitVec 32 := Scalar.extui v49
  let c0_i32_8 : BitVec 32 := 0#32
  let v51 : BitVec 1 := Scalar.cmpi .ne v50 c0_i32_8
  v51

def cc0_transform_0 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S4800x128_S4800x128_0_0 : ∀ a, (![0, 0] : Fin 2 → Nat) a + S4800x128.size a ≤ S4800x128.size a
  h_S4800x128 : 0 < S4800x128.numel
  shapeCasts_S4800x128_S4800x128 : S4800x128.ShapeCasts S4800x128
  inb_S2048x4_S2048x4_0_0 : ∀ a, (![0, 0] : Fin 2 → Nat) a + S2048x4.size a ≤ S2048x4.size a
  h_S2048x4 : 0 < S2048x4.numel
  slices_S2048x4_o0_0_S2048x1 : S2048x4.Slices ![0, 0] S2048x1
  shapeCasts_S2048x1_S2048 : S2048x1.ShapeCasts S2048
  slices_S2048x4_o0_1_S2048x1 : S2048x4.Slices ![0, 1] S2048x1
  slices_S2048x4_o0_3_S2048x1 : S2048x4.Slices ![0, 3] S2048x1
  iota_S4800x1_d0_w32 : S4800x1.Iotas .tc 32 [0]
  shapeCasts_S2048_S1x2048 : S2048.ShapeCasts S1x2048
  broadcasts_S4800x1_S4800x2048 : S4800x1.Broadcasts S4800x2048
  broadcasts_S1x2048_S4800x2048 : S1x2048.Broadcasts S4800x2048
  natLt_1_32 : 1 < 32
  bitsLt_bf16_f32 : FTy.bits .bf16 < FTy.bits .f32
  iota_S1x128_d1_w32 : S1x128.Iotas .tc 32 [1]
  shapeCasts_S2048_S2048x1 : S2048.ShapeCasts S2048x1
  broadcasts_S1x128_S2048x128 : S1x128.Broadcasts S2048x128
  broadcasts_S2048x1_S2048x128 : S2048x1.Broadcasts S2048x128
  inb_S1x4800x128_S1x4800x128_0_0_0 : ∀ a, (![0, 0, 0] : Fin 3 → Nat) a + S1x4800x128.size a ≤ S1x4800x128.size a
  h_S1x4800x128 : 0 < S1x4800x128.numel
  shapeCasts_S1x4800x128_S4800x128 : S1x4800x128.ShapeCasts S4800x128
  shapeCasts_S4800x128_S1x4800x128 : S4800x128.ShapeCasts S1x4800x128
  slices_S2x4800x128_S1x4800x128_0_0_0 : S2x4800x128.Slices ![0, 0, 0] S1x4800x128
  slices_S2x4800x128_S1x4800x128_1_0_0 : S2x4800x128.Slices ![1, 0, 0] S1x4800x128
  bcast_S_S4800x128 : S_.BroadcastsInDim S4800x128 (![] : Fin 0 → Fin S4800x128.rank)
  shapeCasts_S4800x128_S2x480x640 : S4800x128.ShapeCasts S2x480x640
  bcast_S2x480x640_S1x2x480x640_1_2_3 : S2x480x640.BroadcastsInDim S1x2x480x640 (![1, 2, 3] : Fin 3 → Fin S1x2x480x640.rank)
  dot_S4800x2048_S2048x128_S4800x128_1_0_0_1_n_n_wf : DotDims.WF S4800x2048 S2048x128 S4800x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S16777216x4.size a
  hwx0_0 : ∀ i : grid0.Coords, EltTy.bits .f32 = 32 ∨ (Rect.block (s := S16777216x4) S2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4800x128.size a ≤ S2x4800x128.size a
  hwx0_1 : ∀ i : grid0.Coords, EltTy.bits .f32 = 32 ∨ (Rect.block (s := S2x4800x128) S1x4800x128.size (cc0_transform_1 i) (hinb0_1 i)).WholeWords (EltTy.packing .f32)

variable [Facts₀]

def dot_S4800x2048_S2048x128_S4800x128_1_0_0_1_n_n : DotDims S4800x2048 S2048x128 S4800x128 where
  lhsContracting := [1]
  rhsContracting := [0]
  lhsNonContracting := [0]
  rhsNonContracting := [1]
  lhsBatch := []
  rhsBatch := []
  wf := dot_S4800x2048_S2048x128_S4800x128_1_0_0_1_n_n_wf

abbrev win0_0 : Pipeline.Window sig grid0 :=
  Pipeline.Window.ofSpec (Memref.whole main_arg0) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4800x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16777216x4 : Shape := ⟨2, ![16777216, 4]⟩
abbrev S4x16777216 : Shape := ⟨2, ![4, 16777216]⟩
abbrev S1x16777216 : Shape := ⟨2, ![1, 16777216]⟩
abbrev S16777216 : Shape := ⟨1, ![16777216]⟩
abbrev S_ : Shape := ⟨0, ![]⟩
abbrev S614400 : Shape := ⟨1, ![614400]⟩
abbrev S16777216x1 : Shape := ⟨2, ![16777216, 1]⟩
abbrev S1x2x480x640 : Shape := ⟨4, ![1, 2, 480, 640]⟩

abbrev nBuf : Space → Nat
  | .hbm => 49
  | .vmem => 0
  | .smem => 0
  | _ => 0

abbrev bufTy : (tb : Table) → Fin (tcTables nBuf tb) → BufTy
  | .hbm, ⟨0, _⟩ => ⟨S16777216x4, .f32⟩
  | .hbm, ⟨1, _⟩ => ⟨S4x16777216, .f32⟩
  | .hbm, ⟨2, _⟩ => ⟨S1x16777216, .f32⟩
  | .hbm, ⟨3, _⟩ => ⟨S16777216, .f32⟩
  | .hbm, ⟨4, _⟩ => ⟨S1x16777216, .f32⟩
  | .hbm, ⟨5, _⟩ => ⟨S16777216, .f32⟩
  | .hbm, ⟨6, _⟩ => ⟨S1x16777216, .f32⟩
  | .hbm, ⟨7, _⟩ => ⟨S16777216, .f32⟩
  | .hbm, ⟨8, _⟩ => ⟨S1x16777216, .f32⟩
  | .hbm, ⟨9, _⟩ => ⟨S16777216, .f32⟩
  | .hbm, ⟨10, _⟩ => ⟨S_, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S_, .f32⟩
  | .hbm, ⟨15, _⟩ => ⟨S16777216, .f32⟩
  | .hbm, ⟨16, _⟩ => ⟨S16777216, .f32⟩
  | .hbm, ⟨17, _⟩ => ⟨S_, .f32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S_, .f32⟩
  | .hbm, ⟨25, _⟩ => ⟨S16777216, .f32⟩
  | .hbm, ⟨26, _⟩ => ⟨S16777216, .f32⟩
  | .hbm, ⟨27, _⟩ => ⟨S16777216, .f32⟩
  | .hbm, ⟨28, _⟩ => ⟨S16777216, .i32⟩
  | .hbm, ⟨29, _⟩ => ⟨S_, .f32⟩
  | .hbm, ⟨30, _⟩ => ⟨S614400, .f32⟩
  | .hbm, ⟨31, _⟩ => ⟨S_, .f32⟩
  | .hbm, ⟨32, _⟩ => ⟨S16777216, .f32⟩
  | .hbm, ⟨33, _⟩ => ⟨S_, .i32⟩
  | .hbm, ⟨34, _⟩ => ⟨S16777216, .i32⟩
  | .hbm, ⟨35, _⟩ => ⟨S16777216, .i1⟩
  | .hbm, ⟨36, _⟩ => ⟨S_, .i32⟩
  | .hbm, ⟨37, _⟩ => ⟨S16777216, .i32⟩
  | .hbm, ⟨38, _⟩ => ⟨S16777216, .i32⟩
  | .hbm, ⟨39, _⟩ => ⟨S16777216, .i32⟩
  | .hbm, ⟨40, _⟩ => ⟨S16777216x1, .i32⟩
  | .hbm, ⟨41, _⟩ => ⟨S614400, .f32⟩
  | .hbm, ⟨42, _⟩ => ⟨S_, .f32⟩
  | .hbm, ⟨43, _⟩ => ⟨S614400, .f32⟩
  | .hbm, ⟨44, _⟩ => ⟨S614400, .i1⟩
  | .hbm, ⟨45, _⟩ => ⟨S_, .f32⟩
  | .hbm, ⟨46, _⟩ => ⟨S614400, .f32⟩
  | .hbm, ⟨47, _⟩ => ⟨S614400, .f32⟩
  | .hbm, ⟨48, _⟩ => ⟨S1x2x480x640, .f32⟩
  | _, _ => ⟨S16777216x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_4 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  transposes_S16777216x4_S4x16777216_1_0 : S16777216x4.Transposes [1, 0] S4x16777216
  slices_S4x16777216_S1x16777216_0_0 : S4x16777216.Slices ![0, 0] S1x16777216
  shapeCasts_S1x16777216_S16777216 : S1x16777216.ShapeCasts S16777216
  slices_S4x16777216_S1x16777216_1_0 : S4x16777216.Slices ![1, 0] S1x16777216
  slices_S4x16777216_S1x16777216_2_0 : S4x16777216.Slices ![2, 0] S1x16777216
  slices_S4x16777216_S1x16777216_3_0 : S4x16777216.Slices ![3, 0] S1x16777216
  reducesTo_S16777216_S_d0 : S16777216.ReducesTo [0] S_
  h_S_ : 0 < S_.numel
  bcast_S_S16777216 : S_.BroadcastsInDim S16777216 (![] : Fin 0 → Fin S16777216.rank)
  bcast_S_S614400 : S_.BroadcastsInDim S614400 (![] : Fin 0 → Fin S614400.rank)
  bcast_S16777216_S16777216x1_0 : S16777216.BroadcastsInDim S16777216x1 (![0] : Fin 1 → Fin S16777216x1.rank)
  shapeCasts_S614400_S1x2x480x640 : S614400.ShapeCasts S1x2x480x640
  scatter_S614400_S16777216x1_S16777216_n_0_0_1_wf : ScatterDims.WF S614400 S16777216x1 S16777216 [] [0] [0] 1

variable [Facts₀]

def scatter_S614400_S16777216x1_S16777216_n_0_0_1 : ScatterDims S614400 S16777216x1 S16777216 where
  updateWindowDims := []
  insertedWindowDims := [0]
  scatterDimsToOperandDims := [0]
  indexVectorDim := 1
  wf := scatter_S614400_S16777216x1_S16777216_n_0_0_1_wf

class Facts : Prop extends Facts₀ where

variable [Facts]
-- ==== Proof.Consts.lean ====
/- The float literals the two programs and the precondition spell, as the extended reals their bit patterns
   denote: 0, 1, 2, 480, 640, 307200 and +∞. Every other module reads them here. -/
import Idealize.ShloMosaic.PureOps.Ideal

noncomputable section

namespace Cert.EventCount.Consts

open Idealize.ShloMosaic

/-- The word of `+0.0` denotes the real 0. -/
theorem ofBits_zero : Ideal.ofBits .f32 0x00000000#32 = 0 := by
  simp [Ideal.ofBits, Ideal.ieee]

/-- The word of `1.0` denotes the real 1. -/
theorem ofBits_one : Ideal.ofBits .f32 0x3F800000#32 = ((1 : ℝ) : EReal) := by
  simp [Ideal.ofBits, Ideal.ieee, -EReal.coe_mul]; norm_num

/-- The word of `2.0` denotes the real 2. -/
theorem ofBits_two : Ideal.ofBits .f32 0x40000000#32 = ((2 : ℝ) : EReal) := by
  simp [Ideal.ofBits, Ideal.ieee, -EReal.coe_mul]; norm_num

/-- The word of `480.0`, the sensor's height, denotes the real 480. -/
theorem ofBits_480 : Ideal.ofBits .f32 0x43F00000#32 = ((480 : ℝ) : EReal) := by
  simp [Ideal.ofBits, Ideal.ieee, -EReal.coe_mul]; norm_num

/-- The word of `640.0`, the sensor's width, denotes the real 640. -/
theorem ofBits_640 : Ideal.ofBits .f32 0x44200000#32 = ((640 : ℝ) : EReal) := by
  simp [Ideal.ofBits, Ideal.ieee, -EReal.coe_mul]; norm_num

/-- The word of `307200.0`, the cells of one polarity plane (480 · 640), denotes the real 307200. -/
theorem ofBits_307200 : Ideal.ofBits .f32 0x48960000#32 = ((307200 : ℝ) : EReal) := by
  simp [Ideal.ofBits, Ideal.ieee, -EReal.coe_mul]; norm_num

/-- The word of `+inf` denotes the top of the extended reals. -/
theorem ofBits_inf : Ideal.ofBits .f32 0x7F800000#32 = ⊤ := by
  simp [Ideal.ofBits, Ideal.ieee]

end Cert.EventCount.Consts

end
-- ==== Proof.Spec.lean ====
/- The event-count voxel grid, as mathematics. An event is a row (x, y, t, p) of the events array; under the
   domain contract (x a real in [0, 640), y a whole number below 480, p one of -1 and 1) it falls in the cell
   ⌊x⌋ + 640·y + 307200·[p > 0] of a flat grid of 2·480·640 cells, and the result marks with 1 the cells some
   event falls in and with 0 the others. This module also names the 32-bit words each program computes per event
   (the kernel a row word and a lane word, the reference one flat word) and the two programs' results written
   over those words; the other modules prove that the programs compute these and that, under the contract, they
   all are the marked grid. -/
import Idealize.ShloMosaic.PureOps.Ideal
import Idealize.ShloMosaic.Lib.ValueIdx

noncomputable section

namespace Cert.EventCount

open Idealize.ShloMosaic Idealize.ShloMosaic.ValueIdx

/-- The events array: 16777216 rows (x, y, t, p). -/
abbrev SEvents : Shape := ⟨2, ![16777216, 4]⟩
/-- The result: one batch entry, two polarity planes of 480 rows of 640 cells. -/
abbrev SVox : Shape := ⟨4, ![1, 2, 480, 640]⟩

/-- Column `c` of event `n`. -/
abbrev fld (E : SEvents.Idx → EReal) (n : Fin 16777216) (c : Fin 4) : EReal := E (ix2 n c)

/-- The domain contract of one event with fields x, y, p: x is a real in [0, 640), y is a whole number below 480,
    p is 1 or -1. -/
def EvOK (x y p : EReal) : Prop :=
  ∃ (xr : ℝ) (yn : ℕ), x = ((xr : ℝ) : EReal) ∧ 0 ≤ xr ∧ xr < 640 ∧ y = (((yn : ℕ) : ℝ) : EReal) ∧ yn < 480
    ∧ (p = ((1 : ℝ) : EReal) ∨ p = ((-1 : ℝ) : EReal))

/-- The flat cell of an event: ⌊x⌋ + 640·⌊y⌋ + 307200·[p > 0]. -/
def cell (x y p : EReal) : ℕ :=
  ⌊x.toReal⌋₊ + 640 * ⌊y.toReal⌋₊ + 307200 * (if 0 < p then 1 else 0)

/-- The kernel's row word of an event: [p > 0]·2400 + trunc(y)·5 + (trunc(x) >> 7), in 32-bit arithmetic. -/
def rowWord (x y p : EReal) : BitVec 32 :=
  IntOp.addi
    (IntOp.addi (IntOp.muli (Scalar.select (Ideal.cmp .ogt p (Ideal.ofBits .f32 0x00000000#32)) (1#32) (0#32)) (2400#32))
      (IntOp.muli (Ideal.fptosi 32 y) (5#32)))
    (IntOp.shrsi .vector (Ideal.fptosi 32 x) (7#32))

/-- The kernel's lane word of an event: trunc(x) & 127. -/
def laneWord (x : EReal) : BitVec 32 := IntOp.andi (Ideal.fptosi 32 x) (127#32)

/-- The reference's flat word of an event: trunc(x + 640·y + 307200·((p + 1) / 2)), a negative word moved up by the
    grid's 614400 cells. -/
def refWord (x y p : EReal) : BitVec 32 :=
  let v : BitVec 32 := Ideal.fptosi 32
    ((x + ((640 : ℝ) : EReal) * y) + ((307200 : ℝ) : EReal) * Ideal.div (p + ((1 : ℝ) : EReal)) ((2 : ℝ) : EReal))
  Scalar.select (IntOp.cmpi .slt v (0#32)) (IntOp.addi v (614400#32)) v

/-- How many events fall in cell `b`, as an extended real. -/
def count (E : SEvents.Idx → EReal) (b : ℕ) : EReal :=
  ∑ n : Fin 16777216, if cell (fld E n 0) (fld E n 1) (fld E n 3) = b then (1 : EReal) else 0

/-- The flat cell of a result index (batch, plane, row, column). -/
def flat (i : SVox.Idx) : ℕ := 307200 * (i 1).val + 640 * (i 2).val + (i 3).val

theorem flat_lt (i : SVox.Idx) : flat i < 614400 := by
  have h1 : (i 1).val < 2 := (i 1).isLt
  have h2 : (i 2).val < 480 := (i 2).isLt
  have h3 : (i 3).val < 640 := (i 3).isLt
  unfold flat; omega

/-- THE MARKED GRID: 1 at the cells some event falls in, 0 at the others. -/
def vox (E : SEvents.Idx → EReal) : SVox.Idx → EReal :=
  fun i => if 0 < count E (flat i) then (1 : EReal) else 0

/-! ## The kernel's result over its own words -/

/-- Event number of lane `j` of the block that grid point (g, k) reads: ((g·4096 + k)·2048 + j). -/
def evAt (g : Fin 2) (k : Fin 4096) (j : Fin 2048) : Fin 16777216 :=
  ⟨(g.val * 4096 + k.val) * 2048 + j.val, by
    have := g.isLt; have := k.isLt; have := j.isLt; omega⟩

/-- One event's contribution to histogram entry (r, l) as the kernel forms it: the product of two one-hot
    entries, row word against r and lane word against l. -/
def hitK (x y p : EReal) (r : Fin 4800) (l : Fin 128) : EReal :=
  (if BitVec.ofNat 32 r.val = rowWord x y p then (1 : EReal) else 0)
    * (if BitVec.ofNat 32 l.val = laneWord x then (1 : EReal) else 0)

/-- Half `g` of the events' contribution to histogram entry (r, l): its 4096 blocks of 2048 events, block by block. -/
def histHalf (E : SEvents.Idx → EReal) (g : Fin 2) (r : Fin 4800) (l : Fin 128) : EReal :=
  ∑ k : Fin 4096, ∑ j : Fin 2048,
    hitK (fld E (evAt g k j) 0) (fld E (evAt g k j) 1) (fld E (evAt g k j) 3) r l

/-- The kernel's histogram entry (r, l): the two halves added. -/
def histK (E : SEvents.Idx → EReal) (r : Fin 4800) (l : Fin 128) : EReal :=
  ∑ g : Fin 2, histHalf E g r l

/-- The array the kernel's launch writes: one 4800 × 128 histogram per half. -/
abbrev SHalves : Shape := ⟨3, ![2, 4800, 128]⟩
def histArr (E : SEvents.Idx → EReal) : SHalves.Idx → EReal :=
  fun i => histHalf E ⟨(i 0).val, (i 0).isLt⟩ ⟨(i 1).val, (i 1).isLt⟩ ⟨(i 2).val, (i 2).isLt⟩

/-- Row and lane of a flat cell: b = 128·r + l. -/
def rowOf (i : SVox.Idx) : Fin 4800 := ⟨flat i / 128, by have := flat_lt i; omega⟩
def laneOf (i : SVox.Idx) : Fin 128 := ⟨flat i % 128, Nat.mod_lt _ (by norm_num)⟩

/-- The kernel's result over its words: 1 where the histogram entry of the cell is positive, else 0. -/
def voxK (E : SEvents.Idx → EReal) : SVox.Idx → EReal :=
  fun i => if 0 < histK E (rowOf i) (laneOf i) then (1 : EReal) else 0

/-! ## The reference's result over its own word -/

/-- The reference's count of cell `b`: the events whose flat word, read signed, is b. -/
def countR (E : SEvents.Idx → EReal) (b : ℕ) : EReal :=
  ∑ n : Fin 16777216, if (refWord (fld E n 0) (fld E n 1) (fld E n 3)).toInt = (b : ℤ) then (1 : EReal) else 0

/-- The reference's result over its word: 1 where the count is positive, else the count itself. -/
def voxR (E : SEvents.Idx → EReal) : SVox.Idx → EReal :=
  fun i => if 0 < countR E (flat i) then (1 : EReal) else countR E (flat i)

end Cert.EventCount

end
-- ==== Proof.PreDecode.lean ====
/- The printed precondition, decoded: where it is all ones every event satisfies the domain contract. -/
import proofs.«103364_j55078660604232_1_alg».proof.Proof.Spec
import proofs.«103364_j55078660604232_1_alg».proof.Proof.Consts
import proofs.«103364_j55078660604232_1_alg».proof.Pre_finite_inputs
import Idealize.ShloMosaic.Lib.ReduceAll
import Idealize.ShloMosaic.Lib.ValueIdx
import Idealize.ShloMosaic.Lib.Pipeline.Value

noncomputable section

namespace Cert.EventCount

open Idealize.ShloMosaic Idealize.ShloMosaic.ValueIdx

/-- A rank-0 shape has one index. -/
private instance subsingleton_S_ : Subsingleton Cert.Pre_finite_inputs.S_.Idx := ⟨fun a b => funext fun d => d.elim0⟩

/-- A one-bit word from a boolean is 1 exactly when the boolean is true. -/
private theorem ofBool_one {b : Bool} (h : BitVec.ofBool b = 1#1) : b = true := by
  cases b
  · exact absurd h (by decide)
  · rfl

/-! ## The comparisons read back -/

private theorem cmp_olt {a b : EReal} (h : Ideal.cmp .olt a b = 1#1) : a < b :=
  of_decide_eq_true (ofBool_one h)

private theorem cmp_oge {a b : EReal} (h : Ideal.cmp .oge a b = 1#1) : b ≤ a :=
  of_decide_eq_true (ofBool_one h)

private theorem cmp_oeq {a b : EReal} (h : Ideal.cmp .oeq a b = 1#1) : a = b :=
  of_decide_eq_true (ofBool_one h)

/-- The same, for an elementwise comparison of two arrays read at an index. -/
private theorem vcmp_olt {s : Shape} (A B : FVec Ideal s .f32) (i : s.Idx) (h : cmpf .olt A B i = 1#1) : A i < B i :=
  cmp_olt (a := A i) (b := B i) h

private theorem vcmp_oge {s : Shape} (A B : FVec Ideal s .f32) (i : s.Idx) (h : cmpf .oge A B i = 1#1) : B i ≤ A i :=
  cmp_oge (a := A i) (b := B i) h

private theorem vcmp_oeq {s : Shape} (A B : FVec Ideal s .f32) (i : s.Idx) (h : cmpf .oeq A B i = 1#1) : A i = B i :=
  cmp_oeq (a := A i) (b := B i) h

/-- A broadcast scalar literal reads the literal's value everywhere. -/
private theorem bconst {t : Shape} (hb : Cert.Pre_finite_inputs.S_.BroadcastsInDim t ![]) (w : BitVec 32) (j : t.Idx) :
    broadcastInDim t ![] hb (constant (F := Ideal) Cert.Pre_finite_inputs.S_ .f32 w) j = Ideal.ofBits .f32 w := rfl

/-- The host's floor and absolute value of an array, read at an index. -/
private theorem floor_apply {s : Shape} (A : FVec Ideal s .f32) (i : s.Idx) :
    Host.floor A i = Ideal.liftRound Int.floor (A i) := rfl

private theorem absf_apply {s : Shape} (A : FVec Ideal s .f32) (i : s.Idx) :
    Host.absf A i = max (A i) (-(A i)) := rfl

/-! ## A column of the events array read at an event -/

private theorem col_read (E : SEvents.Idx → EReal) (o : Nat) (ho : o < 4)
    (hs : Cert.Pre_finite_inputs.S16777216x4.Slices ![0, o] Cert.Pre_finite_inputs.S16777216x1)
    (hc : Cert.Pre_finite_inputs.S16777216x1.ShapeCasts Cert.Pre_finite_inputs.S16777216) (n : Fin 16777216) :
    shapeCast Cert.Pre_finite_inputs.S16777216
      (extractStridedSlice Cert.Pre_finite_inputs.S16777216x1 ![0, o] E hs) hc (ix1 n) = E (ix2 n ⟨o, ho⟩) := by
  refine (shapeCast_apply _ hc (ix1 n) (ix2 n (0 : Fin 1)) ?_).trans ?_
  · rw [Shape.rowMajor_val_two, Shape.rowMajor_val_one]
    show n.val * 1 + 0 = n.val
    omega
  · refine extractStridedSlice_apply _ E hs _ (ix2 n ⟨o, ho⟩) fun a => ?_
    match a with
    | ⟨0, _⟩ => show n.val = 0 + n.val; omega
    | ⟨1, _⟩ => show o = o + 0; omega

/-! ## The contract from the seven facts -/

/-- An extended real in [0, 640) is a real there; one in [0, 480) equal to its floor is a natural number below 480;
    one whose absolute value max(p, -p) is 1 is 1 or -1. -/
private theorem evok_of_facts {x y p : EReal} (hx0 : 0 ≤ x) (hx1 : x < ((640 : ℝ) : EReal)) (hy0 : 0 ≤ y)
    (hy1 : y < ((480 : ℝ) : EReal)) (hyf : y = Ideal.liftRound Int.floor y) (hp : max p (-p) = ((1 : ℝ) : EReal)) :
    EvOK x y p := by
  induction x using EReal.rec with
  | bot => exact absurd hx0 (by simp)
  | top => exact absurd hx1 (by simp)
  | coe xr =>
  induction y using EReal.rec with
  | bot => exact absurd hy0 (by simp)
  | top => exact absurd hy1 (by simp)
  | coe yr =>
  have hx0' : 0 ≤ xr := EReal.coe_nonneg.1 hx0
  have hx1' : xr < 640 := EReal.coe_lt_coe_iff.1 hx1
  have hy0' : 0 ≤ yr := EReal.coe_nonneg.1 hy0
  have hy1' : yr < 480 := EReal.coe_lt_coe_iff.1 hy1
  have hyf' : yr = ((⌊yr⌋ : ℤ) : ℝ) := EReal.coe_eq_coe_iff.1 hyf
  have hfl : 0 ≤ ⌊yr⌋ := Int.floor_nonneg.2 hy0'
  have hnat : ((⌊yr⌋.toNat : ℕ) : ℤ) = ⌊yr⌋ := Int.toNat_of_nonneg hfl
  refine ⟨xr, ⌊yr⌋.toNat, rfl, hx0', hx1', ?_, ?_, ?_⟩
  · congr 1
    calc yr = ((⌊yr⌋ : ℤ) : ℝ) := hyf'
      _ = (((⌊yr⌋.toNat : ℕ) : ℤ) : ℝ) := by rw [hnat]
      _ = ((⌊yr⌋.toNat : ℕ) : ℝ) := Int.cast_natCast _
  · have hlt : ⌊yr⌋ < 480 := Int.floor_lt.2 (by exact_mod_cast hy1')
    omega
  · rcases max_choice p (-p) with hm | hm
    · left; rw [← hm]; exact hp
    · right
      have hneg : -p = ((1 : ℝ) : EReal) := by rw [← hm]; exact hp
      rw [neg_eq_iff_eq_neg.1 hneg]
      exact (EReal.coe_neg 1).symm

/-- Where the printed precondition evaluates to true, every event's fields satisfy the contract: x in [0, 640),
    y a whole number below 480, p of absolute value 1. -/
theorem ok_of_pre [Cert.Pre_finite_inputs.Facts] (E : SEvents.Idx → EReal)
    (h : Cert.Pre_finite_inputs.fn (F := Ideal) E = fun _ => 1#1) :
    ∀ n : Fin 16777216, EvOK (fld E n 0) (fld E n 1) (fld E n 3) := by
  have h0 := congrFun h ix0
  simp only [Cert.Pre_finite_inputs.fn, Cert.Pre_finite_inputs.fn_part1] at h0
  obtain ⟨h0, hp⟩ := IntOp.andi_eq_one.1 h0
  obtain ⟨h0, hyf⟩ := IntOp.andi_eq_one.1 h0
  obtain ⟨h0, hy1⟩ := IntOp.andi_eq_one.1 h0
  obtain ⟨h0, hy0⟩ := IntOp.andi_eq_one.1 h0
  obtain ⟨h0, hx1⟩ := IntOp.andi_eq_one.1 h0
  obtain ⟨_, hx0⟩ := IntOp.andi_eq_one.1 h0
  intro n
  have ex0 := vcmp_oge _ _ _ (Host.reduce_andi_all _ _ _ _ _ hx0 (ix1 n))
  have ex1 := vcmp_olt _ _ _ (Host.reduce_andi_all _ _ _ _ _ hx1 (ix1 n))
  have ey0 := vcmp_oge _ _ _ (Host.reduce_andi_all _ _ _ _ _ hy0 (ix1 n))
  have ey1 := vcmp_olt _ _ _ (Host.reduce_andi_all _ _ _ _ _ hy1 (ix1 n))
  have eyf := vcmp_oeq _ _ _ (Host.reduce_andi_all _ _ _ _ _ hyf (ix1 n))
  have ep := vcmp_oeq _ _ _ (Host.reduce_andi_all _ _ _ _ _ hp (ix1 n))
  rw [bconst, col_read E 0 (by norm_num), Consts.ofBits_zero] at ex0
  rw [bconst, col_read E 0 (by norm_num), Consts.ofBits_640] at ex1
  rw [bconst, col_read E 1 (by norm_num), Consts.ofBits_zero] at ey0
  rw [bconst, col_read E 1 (by norm_num), Consts.ofBits_480] at ey1
  rw [floor_apply, col_read E 1 (by norm_num)] at eyf
  rw [absf_apply, bconst, col_read E 3 (by norm_num), Consts.ofBits_one] at ep
  exact evok_of_facts ex0 ex1 ey0 ey1 eyf ep

end Cert.EventCount

end
-- ==== Proof.KStep.lean ====
/- One grid point's update of the kernel's accumulator, named: the accumulator plus the product of the block's row one-hot matrix and lane one-hot matrix; and the value the accumulator is reset to. -/
import proofs.«103364_j55078660604232_1_alg».proof.Proof.Gen.KernelIdeal.Skeleton
import proofs.«103364_j55078660604232_1_alg».proof.Proof.Spec

noncomputable section

namespace Cert.KernelIdeal.Hist

open Idealize.ShloMosaic Idealize.ShloMosaic.TcCoe Idealize.ShloMosaic.ValueIdx Idealize.SL.Sem
open Cert.KernelIdeal Cert.KernelIdeal.Gen Cert.EventCount

variable {F : FTy → Type} [FloatOps F]

/-- One point's update: from the point's block of 2048 events and the accumulator so far, the accumulator plus
    (row one-hot) · (lane one-hot). -/
def step (x0 : Vec F S2048x4 .f32) (acc : Vec F S4800x128 .f32) : Vec F S4800x128 .f32 :=
  k0_pay1 (k0_pay5 x0) (k0_pay6 x0) acc

/-- What the accumulator is reset to at the first point of each half: the zero block. -/
def zeroAcc : Vec F S4800x128 .f32 := k0_pay3 (F := F)

end Cert.KernelIdeal.Hist

end
-- ==== Proof.KPieces.lean ====
/- What each control case of the kernel body leaves, as values: at a half's first point the accumulator is the update of the zero block; at the other points the update of what the point before left; at a half's last point the output's staging buffer also receives the updated accumulator re-laid. -/
import proofs.«103364_j55078660604232_1_alg».proof.Proof.Gen.KernelIdeal.Frame
import proofs.«103364_j55078660604232_1_alg».proof.Proof.KStep
import Idealize.ShloMosaic.Lib.Pipeline.Value
import Idealize.ShloMosaic.Lib.Tactic

noncomputable section

namespace Cert.KernelIdeal.Hist

open Idealize.ShloMosaic Idealize.ShloMosaic.TcCoe Idealize.ShloMosaic.ValueIdx Idealize.SL.Sem
open Idealize.ShloMosaic.Pipeline (Dat)
open Cert.KernelIdeal Cert.KernelIdeal.Gen Cert.EventCount

variable {F : FTy → Type} [FloatOps F]

/-- The zero offsets of a rank-2 block, as the constant function. -/
private theorem hz2 : (![0, 0] : Fin 2 → Nat) = fun _ => 0 := funext fun a => by fin_cases a <;> rfl

/-- The zero offsets of a rank-3 block, as the constant function. -/
private theorem hz3 : (![0, 0, 0] : Fin 3 → Nat) = fun _ => 0 := funext fun a => by fin_cases a <;> rfl

/-- Case A (a half's first point): the scratch ends at the update of the zero block. -/
theorem sout_A (c : Dev nD) (i : grid0.Coords) (arg2 : Memref sig .tc .vmem S2048x4 .f32) (harg2 : arg2.IsWhole) (arg3 : Memref sig .tc .vmem S1x4800x128 .f32) (harg3 : arg3.IsWhole) (arg4 : Memref sig .tc .vmem S4800x128 .f32) (harg4 : arg4.IsWhole) (hc0 : cond0_0 i) (hc1 : ¬cond0_1 i) (x0 : Vec F S2048x4 .f32) :
    sout0_A_0 c i arg2 harg2 arg3 harg3 arg4 harg4 hc0 hc1 x0 = step x0 (zeroAcc (F := F)) := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S4800x128) hz2, View.readCov_unit_zero (S := S4800x128) _ hz2]
  unfold step zeroAcc
  simp only [View.readAt_eq_ld, harg2.read_unread, View.ld_unit_zero (S := S2048x4) hz2]

/-- Case B (a middle point): the scratch ends at the update of what it held. -/
theorem sout_B (c : Dev nD) (i : grid0.Coords) (arg2 : Memref sig .tc .vmem S2048x4 .f32) (harg2 : arg2.IsWhole) (arg3 : Memref sig .tc .vmem S1x4800x128 .f32) (harg3 : arg3.IsWhole) (arg4 : Memref sig .tc .vmem S4800x128 .f32) (harg4 : arg4.IsWhole) (hc0 : ¬cond0_0 i) (hc1 : ¬cond0_1 i) (x0 : Vec F S2048x4 .f32) (xs0 : Vec F S4800x128 .f32) :
    sout0_B_0 c i arg2 harg2 arg3 harg3 arg4 harg4 hc0 hc1 x0 xs0 = step x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero (S := S4800x128) hz2]
  unfold step
  simp only [View.readAt_eq_ld, harg2.read_unread, harg4.read_unread, View.ld_unit_zero (S := S2048x4) hz2,
    View.ld_unit_zero (S := S4800x128) hz2]

/-- Case C (a half's last point): the scratch ends at the update of what it held, -/
theorem sout_C (c : Dev nD) (i : grid0.Coords) (arg2 : Memref sig .tc .vmem S2048x4 .f32) (harg2 : arg2.IsWhole) (arg3 : Memref sig .tc .vmem S1x4800x128 .f32) (harg3 : arg3.IsWhole) (arg4 : Memref sig .tc .vmem S4800x128 .f32) (harg4 : arg4.IsWhole) (hc0 : ¬cond0_0 i) (hc1 : cond0_1 i) (x0 : Vec F S2048x4 .f32) (xs0 : Vec F S4800x128 .f32) :
    sout0_C_0 c i arg2 harg2 arg3 harg3 arg4 harg4 hc0 hc1 x0 xs0 = step x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero (S := S4800x128) hz2]
  unfold step
  simp only [View.readAt_eq_ld, harg2.read_unread, harg4.read_unread, View.ld_unit_zero (S := S2048x4) hz2,
    View.ld_unit_zero (S := S4800x128) hz2]

/-- and the output's staging buffer at that update, re-laid as a 1 × 4800 × 128 block. -/
theorem out_C (c : Dev nD) (i : grid0.Coords) (arg2 : Memref sig .tc .vmem S2048x4 .f32) (harg2 : arg2.IsWhole) (arg3 : Memref sig .tc .vmem S1x4800x128 .f32) (harg3 : arg3.IsWhole) (arg4 : Memref sig .tc .vmem S4800x128 .f32) (harg4 : arg4.IsWhole) (hc0 : ¬cond0_0 i) (hc1 : cond0_1 i) (x0 : Vec F S2048x4 .f32) (xs0 : Vec F S4800x128 .f32) :
    out0_C_1 c i arg2 harg2 arg3 harg3 arg4 harg4 hc0 hc1 x0 xs0 = k0_pay2 (step x0 xs0) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero (S := S1x4800x128) hz3, View.readCov_unit_zero (S := S4800x128) _ hz2]
  unfold step
  simp only [View.readAt_eq_ld, harg2.read_unread, harg4.read_unread, View.ld_unit_zero (S := S2048x4) hz2,
    View.ld_unit_zero (S := S4800x128) hz2]

end Cert.KernelIdeal.Hist

end
-- ==== Proof.KPayload.lean ====
/- The kernel's payloads read at an index, over the extended reals: the reset block is zero; a point's update adds, at entry (r, l), the sum over the block's 2048 events of the product of the event's two one-hot entries; the output store re-lays the accumulator as a 1 × 4800 × 128 block. -/
import proofs.«103364_j55078660604232_1_alg».proof.Proof.KStep
import proofs.«103364_j55078660604232_1_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hist

open Idealize.ShloMosaic Idealize.ShloMosaic.TcCoe Idealize.ShloMosaic.ValueIdx Idealize.SL.Sem
open Cert.KernelIdeal Cert.KernelIdeal.Gen Cert.EventCount

/-! ## Layout steps read at coordinates -/

section Layout
variable {α : Type}

/-- An `[a, 1]` column viewed as an `[a]` vector reads, at `i`, the column at `(i, 0)`. -/
private theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` vector viewed as an `[a, 1]` column reads, at `(i, u)`, the vector at `i`, whatever the unit coordinate `u`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `c` of a block of 2048 events, cut out and viewed as a vector, reads at `j` the block at `(j, c)`. -/
private theorem column_apply (o : ℕ) (x : S2048x4.Idx → α) (h1 : S2048x4.Slices ![0, o] S2048x1)
    (h2 : S2048x1.ShapeCasts S2048) (j : Fin 2048) (c : Fin 4) (hc : c.val = o) :
    shapeCast S2048 (extractStridedSlice S2048x1 ![0, o] x h1) h2 (ix1 j) = x (ix2 j c) :=
  (shapeCast_a1_a_apply _ h2 j).trans (slice2_axis1_apply o x h1 j (0 : Fin 1) c (by rw [hc]; rfl))

end Layout

/-! ## The reset block and the output store -/

/-- The reset block is zero everywhere. -/
theorem zeroAcc_apply (i : S4800x128.Idx) : zeroAcc (F := Ideal) i = (0 : EReal) := by
  unfold zeroAcc k0_pay3
  rw [shapeCast_self]
  exact Consts.ofBits_zero

/-- The output store's value is the accumulator re-laid with a leading axis of extent 1. -/
theorem pay2_apply (v : Vec Ideal S4800x128 .f32) (r : Fin 4800) (l : Fin 128) :
    k0_pay2 (F := Ideal) v (ix3 (0 : Fin 1) r l) = v (ix2 r l) := by
  unfold k0_pay2
  exact shapeCast_ab_1ab_apply v _ 0 r l

/-! ## The events' words, per lane of the block -/

/-- The truncated x of event `j` of the block. -/
private theorem pay4_apply (x0 : Vec Ideal S2048x4 .f32) (j : Fin 2048) :
    k0_pay4 (F := Ideal) x0 (ix1 j) = Ideal.fptosi 32 (x0 (ix2 j 0)) := by
  unfold k0_pay4
  show Ideal.fptosi 32 (shapeCast S2048 (extractStridedSlice S2048x1 ![0, 0] x0 _) _ (ix1 j)) = _
  rw [column_apply 0 x0 _ _ j 0 rfl]

/-- A one-bit equality test widened to 32 bits and converted to a float is 1 where the words agree, 0 elsewhere. -/
private theorem oneHot_entry (a b : BitVec 32) :
    ((((IntOp.cmpi .eq a b).setWidth 32).toInt : ℝ) : EReal) = if a = b then (1 : EReal) else 0 := by
  by_cases h : a = b
  · subst h
    have e : IntOp.cmpi .eq a a = 1#1 := by simp [IntOp.cmpi]
    rw [e, if_pos rfl]
    have : ((1#1 : BitVec 1).setWidth 32).toInt = 1 := by decide
    rw [this]; norm_num
  · have hb : (a == b) = false := beq_eq_false_iff_ne.mpr h
    have e : IntOp.cmpi .eq a b = 0#1 := by
      show BitVec.ofBool (a == b) = 0#1
      rw [hb]; rfl
    rw [e, if_neg h]
    have : ((0#1 : BitVec 1).setWidth 32).toInt = 0 := by decide
    rw [this]; norm_num

/-- An integer comparison at an index compares the elements. -/
private theorem cmpi_apply {s : Shape} {w : ℕ} (p : CmpIPredicate) (x y : IVec s w) (i : s.Idx) :
    cmpi p x y i = IntOp.cmpi p (x i) (y i) := rfl

/-- Over the extended reals a signed word converts to the real it denotes. -/
private theorem sitofp_ideal {w : ℕ} (φ : FTy) (b : BitVec w) :
    FloatOps.sitofp (F := Ideal) φ b = ((b.toInt : ℝ) : EReal) := rfl

/-- The row one-hot matrix at (r, j): 1 where r is the row word of event `j` of the block, 0 elsewhere. -/
private theorem pay5_apply (x0 : Vec Ideal S2048x4 .f32) (r : Fin 4800) (j : Fin 2048) :
    k0_pay5 (F := Ideal) x0 (ix2 r j)
      = if BitVec.ofNat 32 r.val = rowWord (x0 (ix2 j 0)) (x0 (ix2 j 1)) (x0 (ix2 j 3)) then (1 : EReal) else 0 := by
  unfold k0_pay5
  simp only [truncf_apply, sitofp_apply, extui_apply]
  rw [cmpi_apply, broadcastTo_a1_ab_apply, broadcastTo_1b_ab_apply, shapeCast_a_1a_apply, iota_single_apply]
  simp only [addi, muli, shrsi, select, cmpf, fptosi, broadcast]
  rw [column_apply 3 x0 _ _ j 3 rfl, column_apply 1 x0 _ _ j 1 rfl, pay4_apply]
  rw [sitofp_ideal, oneHot_entry]
  rfl

/-- The lane one-hot matrix at (j, l): 1 where l is the lane word of event `j` of the block, 0 elsewhere. -/
private theorem pay6_apply (x0 : Vec Ideal S2048x4 .f32) (j : Fin 2048) (l : Fin 128) :
    k0_pay6 (F := Ideal) x0 (ix2 j l)
      = if BitVec.ofNat 32 l.val = laneWord (x0 (ix2 j 0)) then (1 : EReal) else 0 := by
  unfold k0_pay6
  simp only [truncf_apply, sitofp_apply, extui_apply]
  rw [cmpi_apply, broadcastTo_1b_ab_apply, broadcastTo_a1_ab_apply, shapeCast_a_a1_apply, iota_single_apply]
  simp only [andi, broadcast]
  rw [pay4_apply]
  rw [sitofp_ideal, oneHot_entry]
  rfl

/-! ## The block product read at an index -/

/-- Left operand, row axis: the output's row. -/
private theorem lhs_axis0 (i : S4800x128.Idx) (q : dot_S4800x2048_S2048x128_S4800x128_1_0_0_1_n_n.contr.Idx) :
    (dot_S4800x2048_S2048x128_S4800x128_1_0_0_1_n_n.lhsIdx i q 0).val = (i 0).val := by
  unfold DotDims.lhsIdx
  rw [dif_neg (show ¬(0 : Fin S4800x2048.rank) ∈ dot_S4800x2048_S2048x128_S4800x128_1_0_0_1_n_n.lhsBatch by decide),
    dif_pos (show (0 : Fin S4800x2048.rank) ∈ dot_S4800x2048_S2048x128_S4800x128_1_0_0_1_n_n.lhsNonContracting by decide)]
  rfl

/-- Left operand, column axis: the contraction's coordinate. -/
private theorem lhs_axis1 (i : S4800x128.Idx) (q : dot_S4800x2048_S2048x128_S4800x128_1_0_0_1_n_n.contr.Idx) :
    (dot_S4800x2048_S2048x128_S4800x128_1_0_0_1_n_n.lhsIdx i q 1).val = (q ⟨0, by decide⟩).val :=
  dot_S4800x2048_S2048x128_S4800x128_1_0_0_1_n_n.lhsIdx_val_of_single rfl i q

/-- Right operand, row axis: the contraction's coordinate. -/
private theorem rhs_axis0 (i : S4800x128.Idx) (q : dot_S4800x2048_S2048x128_S4800x128_1_0_0_1_n_n.contr.Idx) :
    (dot_S4800x2048_S2048x128_S4800x128_1_0_0_1_n_n.rhsIdx i q 0).val = (q ⟨0, by decide⟩).val :=
  dot_S4800x2048_S2048x128_S4800x128_1_0_0_1_n_n.rhsIdx_val_of_single rfl i q

/-- Right operand, column axis: the output's column. -/
private theorem rhs_axis1 (i : S4800x128.Idx) (q : dot_S4800x2048_S2048x128_S4800x128_1_0_0_1_n_n.contr.Idx) :
    (dot_S4800x2048_S2048x128_S4800x128_1_0_0_1_n_n.rhsIdx i q 1).val = (i 1).val := by
  unfold DotDims.rhsIdx
  rw [dif_neg (show ¬(1 : Fin S2048x128.rank) ∈ dot_S4800x2048_S2048x128_S4800x128_1_0_0_1_n_n.rhsBatch by decide),
    dif_pos (show (1 : Fin S2048x128.rank) ∈ dot_S4800x2048_S2048x128_S4800x128_1_0_0_1_n_n.rhsNonContracting by decide)]
  rfl

/-- The block product into the zero block, at (r, l): the sum over the block's 2048 events of the left operand at (r, j)
    times the right operand at (j, l). -/
private theorem matmul_ix (A : FVec Ideal S4800x2048 .bf16) (B : FVec Ideal S2048x128 .bf16) (r : Fin 4800) (l : Fin 128) :
    matmul (F := Ideal) dot_S4800x2048_S2048x128_S4800x128_1_0_0_1_n_n none A B
        (constant (F := Ideal) S4800x128 .f32 0x00000000#32) (ix2 r l)
      = ∑ j : Fin 2048, A (ix2 r j) * B (ix2 j l) := by
  simp only [matmul]
  rw [Ideal.matmul_constant_zero_apply,
    ← Equiv.sum_comp (contrEquiv1 dot_S4800x2048_S2048x128_S4800x128_1_0_0_1_n_n 2048 rfl rfl).symm]
  refine Finset.sum_congr rfl fun k _ => ?_
  have hk := contrEquiv1_symm_val dot_S4800x2048_S2048x128_S4800x128_1_0_0_1_n_n 2048 rfl rfl k
  have el : dot_S4800x2048_S2048x128_S4800x128_1_0_0_1_n_n.lhsIdx (ix2 r l)
      ((contrEquiv1 dot_S4800x2048_S2048x128_S4800x128_1_0_0_1_n_n 2048 rfl rfl).symm k) = ix2 r k :=
    funext fun a => Fin.ext (by
      match a with
      | ⟨0, _⟩ => exact lhs_axis0 _ _
      | ⟨1, _⟩ => exact (lhs_axis1 _ _).trans hk)
  have er : dot_S4800x2048_S2048x128_S4800x128_1_0_0_1_n_n.rhsIdx (ix2 r l)
      ((contrEquiv1 dot_S4800x2048_S2048x128_S4800x128_1_0_0_1_n_n 2048 rfl rfl).symm k) = ix2 k l :=
    funext fun a => Fin.ext (by
      match a with
      | ⟨0, _⟩ => exact (rhs_axis0 _ _).trans hk
      | ⟨1, _⟩ => exact rhs_axis1 _ _)
  rw [el, er]

/-! ## A point's update -/

/-- A point's update at entry (r, l): the accumulator's entry plus, over the block's 2048 events, the product of the
    event's row one-hot entry and lane one-hot entry. -/
theorem step_apply (x0 : Vec Ideal S2048x4 .f32) (acc : Vec Ideal S4800x128 .f32) (r : Fin 4800) (l : Fin 128) :
    step (F := Ideal) x0 acc (ix2 r l)
      = acc (ix2 r l) + ∑ j : Fin 2048, hitK (x0 (ix2 j 0)) (x0 (ix2 j 1)) (x0 (ix2 j 3)) r l := by
  unfold step k0_pay1
  simp only [shapeCast_self, addf_apply]
  rw [matmul_ix]
  refine congrArg (acc (ix2 r l) + ·) (Finset.sum_congr rfl fun j _ => ?_)
  rw [pay5_apply, pay6_apply]
  rfl

end Cert.KernelIdeal.Hist

end
-- ==== Proof.KAccum.lean ====
/- The accumulator point by point: after point n of the grid it is the fold of the updates over the blocks of n's half up to n, and over the extended reals its entry (r, l) after the half's last point is the half's histogram entry. -/
import proofs.«103364_j55078660604232_1_alg».proof.Proof.KPieces
import proofs.«103364_j55078660604232_1_alg».proof.Proof.KPayload

noncomputable section

namespace Cert.KernelIdeal.Hist

open Idealize.ShloMosaic Idealize.ShloMosaic.TcCoe Idealize.ShloMosaic.ValueIdx Idealize.SL.Sem
open Idealize.ShloMosaic.Pipeline (Dat)
open Cert.KernelIdeal Cert.KernelIdeal.Gen Cert.EventCount

variable {F : FTy → Type} [FloatOps F]
variable (m : (ℓ : Loc nD τ sig) → Buf (Elt F) ℓ)

/-- The input window's block at a point, at its literal type. -/
abbrev evBlock (c : Dev nD) (t : Fin cfg0.N) : Vec F S2048x4 .f32 := iblk m c 0 t

/-- The accumulator after point n: reset-and-update at a half's first point, else the update of the point before. -/
def accAt (c : Dev nD) : (n : ℕ) → n < cfg0.N → Vec F S4800x128 .f32
  | 0, h => step (evBlock m c ⟨0, h⟩) (zeroAcc (F := F))
  | n + 1, h =>
    if (n + 1) % 4096 = 0 then step (evBlock m c ⟨n + 1, h⟩) (zeroAcc (F := F))
    else step (evBlock m c ⟨n + 1, h⟩) (accAt c n (Nat.lt_of_succ_lt h))

/-- The generated point-by-point contents carry this accumulator in their scratch component. -/
theorem outsAt_snd (c : Dev nD) : ∀ (n : ℕ) (h : n < cfg0.N), (outsAt0 m c n h).2 = accAt m c n h := by
  intro n
  induction n with
  | zero =>
    intro h
    have h0 : (⟨0, h⟩ : Fin cfg0.N).val % 4096 = 0 := Nat.zero_mod _
    have h1 : ¬(⟨0, h⟩ : Fin cfg0.N).val % 4096 = 4095 := by
      show ¬(0 % 4096 = 4095)
      omega
    rw [outsAt0_A m c ⟨0, h⟩ h0 h1]
    dsimp only
    rw [accAt]
    exact sout_A c (grid0.coords ⟨0, h⟩) (ms0_0 ⟨0, h⟩) (hs0_0 ⟨0, h⟩) (ms0_1 ⟨0, h⟩) (hs0_1 ⟨0, h⟩) scM0_0
      (Memref.isWhole_whole _) ((hcond0_0 ⟨0, h⟩).mpr h0) (fun hh => h1 ((hcond0_1 ⟨0, h⟩).mp hh)) (iblk m c 0 ⟨0, h⟩)
  | succ n ih =>
    intro h
    have ihn := ih (Nat.lt_of_succ_lt h)
    by_cases h0 : (⟨n + 1, h⟩ : Fin cfg0.N).val % 4096 = 0
    · have h1 : ¬(⟨n + 1, h⟩ : Fin cfg0.N).val % 4096 = 4095 := by
        intro h1; rw [h0] at h1; omega
      rw [outsAt0_A m c ⟨n + 1, h⟩ h0 h1]
      dsimp only
      rw [accAt, if_pos h0]
      exact sout_A c (grid0.coords ⟨n + 1, h⟩) (ms0_0 ⟨n + 1, h⟩) (hs0_0 ⟨n + 1, h⟩) (ms0_1 ⟨n + 1, h⟩) (hs0_1 ⟨n + 1, h⟩) scM0_0
        (Memref.isWhole_whole _) ((hcond0_0 ⟨n + 1, h⟩).mpr h0) (fun hh => h1 ((hcond0_1 ⟨n + 1, h⟩).mp hh)) (iblk m c 0 ⟨n + 1, h⟩)
    · by_cases h1 : (⟨n + 1, h⟩ : Fin cfg0.N).val % 4096 = 4095
      · rw [outsAt0_C m c ⟨n + 1, h⟩ h0 h1]
        dsimp only
        rw [accAt, if_neg h0]
        rw [sout_C c (grid0.coords ⟨n + 1, h⟩) (ms0_0 ⟨n + 1, h⟩) (hs0_0 ⟨n + 1, h⟩) (ms0_1 ⟨n + 1, h⟩) (hs0_1 ⟨n + 1, h⟩) scM0_0
          (Memref.isWhole_whole _) (fun hh => h0 ((hcond0_0 ⟨n + 1, h⟩).mp hh)) ((hcond0_1 ⟨n + 1, h⟩).mpr h1) (iblk m c 0 ⟨n + 1, h⟩)
          (outsAt0 m c (n + 1 - 1) _).2]
        exact congrArg (step (evBlock m c ⟨n + 1, h⟩)) ihn
      · rw [outsAt0_B m c ⟨n + 1, h⟩ h0 h1]
        dsimp only
        rw [accAt, if_neg h0]
        rw [sout_B c (grid0.coords ⟨n + 1, h⟩) (ms0_0 ⟨n + 1, h⟩) (hs0_0 ⟨n + 1, h⟩) (ms0_1 ⟨n + 1, h⟩) (hs0_1 ⟨n + 1, h⟩) scM0_0
          (Memref.isWhole_whole _) (fun hh => h0 ((hcond0_0 ⟨n + 1, h⟩).mp hh)) (fun hh => h1 ((hcond0_1 ⟨n + 1, h⟩).mp hh)) (iblk m c 0 ⟨n + 1, h⟩)
          (outsAt0 m c (n + 1 - 1) _).2]
        exact congrArg (step (evBlock m c ⟨n + 1, h⟩)) ihn

/-- At a half's last point the output's staging buffer holds the accumulator re-laid. -/
theorem outsAt_fst_last (c : Dev nD) (t : Fin cfg0.N) (h1 : t.val % 4096 = 4095) :
    (outsAt0 m c t.val t.isLt).1 = k0_pay2 (accAt m c t.val t.isLt) := by
  have h0 : ¬t.val % 4096 = 0 := by rw [h1]; omega
  rw [outsAt0_C m c t h0 h1]
  dsimp only
  rw [out_C c (grid0.coords t) (ms0_0 t) (hs0_0 t) (ms0_1 t) (hs0_1 t) scM0_0 (Memref.isWhole_whole _)
    (fun hh => h0 ((hcond0_0 t).mp hh)) ((hcond0_1 t).mpr h1) (iblk m c 0 t) (outsAt0 m c (t.val - 1) _).2]
  rw [outsAt_snd m c (t.val - 1) _]
  obtain ⟨n, hn⟩ := t
  cases n with
  | zero => exact absurd (Nat.zero_mod _) h0
  | succ n =>
    show k0_pay2 (step (evBlock m c ⟨n + 1, hn⟩) (accAt m c n _)) = k0_pay2 (accAt m c (n + 1) hn)
    rw [accAt.eq_2, if_neg h0]

/-- The input window's index map at point t: block row t, block column 0. -/
private theorem index0 : ∀ t : Fin grid0.N, win0_0.index t (0 : Fin 2) = t.val ∧ win0_0.index t (1 : Fin 2) = 0 := by
  decide +kernel

/-- Row j, column cc of the block point t reads is row t·2048 + j of the events array. -/
theorem evBlock_apply (m : (ℓ : Loc nD τ sig) → Buf (Elt Ideal) ℓ) (c : Dev nD) (t : Fin cfg0.N) (j : Fin 2048) (cc : Fin 4) :
    evBlock m c t (ix2 j cc)
      = m ((c.tc : Thread nD τ).loc main_arg0) (ix2 (⟨t.val * 2048 + j.val, by
          have h1 : t.val < 8192 := lt_of_lt_of_eq t.isLt (show cfg0.N = 8192 from N_0)
          have h2 := j.isLt; omega⟩ : Fin 16777216) cc) := by
  have hi := index0 t
  unfold evBlock iblk
  rw [View.read_apply]
  show V m c main_arg0 _ = m (c.tc.loc main_arg0) _
  unfold V
  congr 1
  funext a
  apply Fin.ext
  match a with
  | ⟨0, _⟩ => show win0_0.index t 0 * 2048 + 1 * j.val = t.val * 2048 + j.val; rw [hi.1]; omega
  | ⟨1, _⟩ => show win0_0.index t 1 * 4 + 1 * cc.val = cc.val; rw [hi.2]; omega

/-- At a point whose position in its half is 0 the accumulator is the update of the zero block. -/
private theorem accAt_first (c : Dev nD) (n : ℕ) (h : n < cfg0.N) (h0 : n % 4096 = 0) :
    accAt m c n h = step (evBlock m c ⟨n, h⟩) (zeroAcc (F := F)) := by
  cases n with
  | zero => rw [accAt]
  | succ n => rw [accAt, if_pos h0]

/-- At any other point it is the update of the accumulator of the point before. -/
private theorem accAt_next (c : Dev nD) (n : ℕ) (h : n + 1 < cfg0.N) (h0 : ¬(n + 1) % 4096 = 0) :
    accAt m c (n + 1) h = step (evBlock m c ⟨n + 1, h⟩) (accAt m c n (Nat.lt_of_succ_lt h)) := by
  rw [accAt, if_neg h0]

/-- Block k of half g's contribution to histogram entry (r, l); zero past the half's 4096 blocks. -/
private def blockSum (E : SEvents.Idx → EReal) (g : Fin 2) (r : Fin 4800) (l : Fin 128) (k : ℕ) : EReal :=
  if hk : k < 4096 then
    ∑ j : Fin 2048, hitK (fld E (evAt g ⟨k, hk⟩ j) 0) (fld E (evAt g ⟨k, hk⟩ j) 1) (fld E (evAt g ⟨k, hk⟩ j) 3) r l
  else 0

/-- The update at point g·4096 + k adds block k of half g's contribution to entry (r, l). -/
private theorem step_evBlock_apply (m : (ℓ : Loc nD τ sig) → Buf (Elt Ideal) ℓ) (c : Dev nD) (g : Fin 2) (k : ℕ) (hk : k < 4096)
    (h : g.val * 4096 + k < cfg0.N) (acc : Vec Ideal S4800x128 .f32) (r : Fin 4800) (l : Fin 128) :
    step (F := Ideal) (evBlock m c ⟨g.val * 4096 + k, h⟩) acc (ix2 r l)
      = acc (ix2 r l) + blockSum (m ((c.tc : Thread nD τ).loc main_arg0)) g r l k := by
  rw [step_apply, blockSum, dif_pos hk]
  refine congrArg (fun s => acc (ix2 r l) + s) (Finset.sum_congr rfl (fun j _ => ?_))
  rw [evBlock_apply m c ⟨g.val * 4096 + k, h⟩ j 0, evBlock_apply m c ⟨g.val * 4096 + k, h⟩ j 1,
    evBlock_apply m c ⟨g.val * 4096 + k, h⟩ j 3]
  rfl

/-- After point g·4096 + k the accumulator's entry (r, l) is the sum of the contributions of blocks 0 … k of half g. -/
private theorem accAt_apply (m : (ℓ : Loc nD τ sig) → Buf (Elt Ideal) ℓ) (c : Dev nD) (g : Fin 2) (r : Fin 4800) (l : Fin 128) :
    ∀ (k : ℕ) (hk : k < 4096) (h : g.val * 4096 + k < cfg0.N),
      accAt m c (g.val * 4096 + k) h (ix2 r l)
        = ∑ k' ∈ Finset.range (k + 1), blockSum (m ((c.tc : Thread nD τ).loc main_arg0)) g r l k' := by
  intro k
  induction k with
  | zero =>
    intro hk h
    have h0 : (g.val * 4096 + 0) % 4096 = 0 := by omega
    rw [accAt_first m c (g.val * 4096 + 0) h h0, step_evBlock_apply m c g 0 hk h, zeroAcc_apply, zero_add,
      Finset.sum_range_one]
  | succ k ih =>
    intro hk h
    have hk' : k < 4096 := Nat.lt_of_succ_lt hk
    have h0 : ¬(g.val * 4096 + k + 1) % 4096 = 0 := by omega
    show accAt m c (g.val * 4096 + k + 1) h (ix2 r l) = _
    rw [accAt_next m c (g.val * 4096 + k) h h0]
    show step (F := Ideal) (evBlock m c ⟨g.val * 4096 + (k + 1), h⟩) _ (ix2 r l) = _
    rw [step_evBlock_apply m c g (k + 1) hk h, ih hk' (Nat.lt_of_succ_lt h), Finset.sum_range_succ _ (k + 1)]

/-- Over the extended reals, after the last point of half g the accumulator's entry (r, l) is the half's histogram entry. -/
theorem accAt_last_apply (m : (ℓ : Loc nD τ sig) → Buf (Elt Ideal) ℓ) (c : Dev nD) (g : Fin 2) (r : Fin 4800) (l : Fin 128)
    (h : g.val * 4096 + 4095 < cfg0.N) :
    accAt m c (g.val * 4096 + 4095) h (ix2 r l) = histHalf (m ((c.tc : Thread nD τ).loc main_arg0)) g r l := by
  rw [accAt_apply m c g r l 4095 (by omega) h, histHalf,
    ← Fin.sum_univ_eq_sum_range (blockSum (m ((c.tc : Thread nD τ).loc main_arg0)) g r l) (4095 + 1)]
  refine Finset.sum_congr rfl (fun k _ => ?_)
  rw [blockSum, dif_pos k.isLt]

end Cert.KernelIdeal.Hist

end
-- ==== Proof.KFinal.lean ====
/- The array the launch writes: the output window is written back at the two halves' last points only, each writing one 1 × 4800 × 128 block, and the two blocks tile the 2 × 4800 × 128 array; so after the run the array holds each half's histogram. -/
import proofs.«103364_j55078660604232_1_alg».proof.Proof.KAccum
import Idealize.ShloMosaic.Lib.Pipeline.Value

noncomputable section

namespace Cert.KernelIdeal.Hist

open Idealize.ShloMosaic Idealize.ShloMosaic.TcCoe Idealize.ShloMosaic.ValueIdx Idealize.SL.Sem
open Idealize.ShloMosaic.Pipeline (Dat)
open Cert.KernelIdeal Cert.KernelIdeal.Gen Cert.EventCount

/-- The output window's block index at point t is (t / 4096, 0, 0): its index map reads the half only. -/
private theorem idx_out : ∀ t : Fin cfg0.N, win0_1.index t (0 : Fin 3) = t.val / 4096 ∧ win0_1.index t (1 : Fin 3) = 0
    ∧ win0_1.index t (2 : Fin 3) = 0 :=
  (by decide +kernel : ∀ t : Fin grid0.N, win0_1.index t (0 : Fin 3) = t.val / 4096 ∧ win0_1.index t (1 : Fin 3) = 0
    ∧ win0_1.index t (2 : Fin 3) = 0)

/-- The accumulator does not depend on how its point's bound is proved. -/
private theorem accAt_congr {F : FTy → Type} [FloatOps F] (m : (ℓ : Loc nD τ sig) → Buf (Elt F) ℓ) (c : Dev nD) {n n' : ℕ}
    (e : n = n') (h : n < cfg0.N) (h' : n' < cfg0.N) : accAt m c n h = accAt m c n' h' := by
  subst e; rfl

/-- At the last point t of half g (t = g·4096 + 4095) the accumulator's entry (r, l) is the half's histogram entry. -/
private theorem accAt_half_last (m : (ℓ : Loc nD τ sig) → Buf (Elt Ideal) ℓ) (c : Dev nD) (t : Fin cfg0.N)
    (h1 : t.val % 4096 = 4095) (g : Fin 2) (hg : g.val = t.val / 4096) (r : Fin 4800) (l : Fin 128) :
    accAt m c t.val t.isLt (ix2 r l) = histHalf (m ((c.tc : Thread nD τ).loc main_arg0)) g r l := by
  have e : t.val = g.val * 4096 + 4095 := by omega
  have h : g.val * 4096 + 4095 < cfg0.N := e ▸ t.isLt
  rw [accAt_congr m c e t.isLt h]
  exact accAt_last_apply m c g r l h

/-- What a half's last point writes back is its block of the array of the halves' histograms. -/
private theorem flushed_eq (m : (ℓ : Loc nD τ sig) → Buf (Elt Ideal) ℓ) (c : Dev nD) (t : Fin cfg0.N)
    (hf : (cfg0.win 1).flush t = true) :
    (dats m 0 c).flushed 1 t
      = ((cfg0.win 1).blk t).view.read (Elt Ideal) (histArr (m ((c.tc : Thread nD τ).loc main_arg0))) := by
  have h1 : t.val % 4096 = 4095 := (flush0_1 t).mp hf
  have hN : t.val < 8192 := lt_of_lt_of_eq t.isLt (show cfg0.N = 8192 from N_0)
  obtain ⟨e0, e1, e2⟩ := idx_out t
  show (cfg0.win 1).cut (grid0.coords t) ((dats m 0 c).after 1 t) = _
  rw [after0_1, outsAt_fst_last m c t h1]
  funext y
  rw [View.read_apply]
  have hy0 : (y 0).val < 1 := (y 0).isLt
  have hy1 : (y 1).val < 4800 := (y 1).isLt
  have hy2 : (y 2).val < 128 := (y 2).isLt
  have hx : (cfg0.win 1).xinj (grid0.coords t) y
      = ix3 (0 : Fin 1) (⟨(y 1).val, hy1⟩ : Fin 4800) (⟨(y 2).val, hy2⟩ : Fin 128) := by
    funext a; apply Fin.ext
    match a with
    | ⟨0, _⟩ => show (y 0).val = 0; omega
    | ⟨1, _⟩ => rfl
    | ⟨2, _⟩ => rfl
  show k0_pay2 (accAt m c t.val t.isLt) ((cfg0.win 1).xinj (grid0.coords t) y)
    = histArr (m ((c.tc : Thread nD τ).loc main_arg0)) (((cfg0.win 1).blk t).view.emb y)
  rw [hx, pay2_apply, accAt_half_last m c t h1 ⟨t.val / 4096, by omega⟩ rfl]
  have z0 : ((((cfg0.win 1).blk t).view.emb y) 0).val = t.val / 4096 := by
    show win0_1.index t (0 : Fin 3) * 1 + 1 * (y 0).val = _; omega
  have z1 : ((((cfg0.win 1).blk t).view.emb y) 1).val = (y 1).val := by
    show win0_1.index t (1 : Fin 3) * 4800 + 1 * (y 1).val = _; omega
  have z2 : ((((cfg0.win 1).blk t).view.emb y) 2).val = (y 2).val := by
    show win0_1.index t (2 : Fin 3) * 128 + 1 * (y 2).val = _; omega
  have key : ∀ (g g' : Fin 2) (r r' : Fin 4800) (l l' : Fin 128), g.val = g'.val → r.val = r'.val → l.val = l'.val →
      histHalf (m ((c.tc : Thread nD τ).loc main_arg0)) g r l = histHalf (m ((c.tc : Thread nD τ).loc main_arg0)) g' r' l' := by
    intro g g' r r' l l' hg hr hl; rw [Fin.ext hg, Fin.ext hr, Fin.ext hl]
  exact key _ _ _ _ _ _ z0.symm z1.symm z2.symm

/-- After the launch the output array holds, at (g, r, l), half g's histogram entry (r, l). -/
theorem final_out (m : (ℓ : Loc nD τ sig) → Buf (Elt Ideal) ℓ) (c : Dev nD) :
    (dats m 0 c).arrAt 1 cfg0.N = histArr (m ((c.tc : Thread nD τ).loc main_arg0)) :=
  (dats m 0 c).arrAt_eq_of_cover 1 (histArr (m ((c.tc : Thread nD τ).loc main_arg0))) (flushed_eq m c) fun i => by
    have hi0 : (i 0 : Nat) < 2 := (i 0).isLt
    have hi1 : (i 1 : Nat) < 4800 := (i 1).isLt
    have hi2 : (i 2 : Nat) < 128 := (i 2).isLt
    have hN : cfg0.N = 8192 := N_0
    obtain ⟨t, ht⟩ : ∃ t : Fin cfg0.N, t.val = (i 0 : Nat) * 4096 + 4095 := ⟨⟨_, by omega⟩, rfl⟩
    obtain ⟨e0, e1, e2⟩ := idx_out t
    refine ⟨t, (flush0_1 t).mpr (by omega), ?_⟩
    show i ∈ ((View.whole main_v0).slice (win0_1.rect t)).set
    rw [View.set_slice_whole, Rect.mem_set_unit]
    intro a
    match a with
    | ⟨0, _⟩ =>
      show win0_1.index t 0 * 1 ≤ (i 0 : Nat) ∧ (i 0 : Nat) < win0_1.index t 0 * 1 + 1
      omega
    | ⟨1, _⟩ =>
      show win0_1.index t 1 * 4800 ≤ (i 1 : Nat) ∧ (i 1 : Nat) < win0_1.index t 1 * 4800 + 4800
      omega
    | ⟨2, _⟩ =>
      show win0_1.index t 2 * 128 ≤ (i 2 : Nat) ∧ (i 2 : Nat) < win0_1.index t 2 * 128 + 128
      omega

end Cert.KernelIdeal.Hist

end
-- ==== Proof.KTail.lean ====
/- The host operations after the launch and the kernel program's run: the two halves' histograms are added, compared with zero, turned into 1 and 0, and re-laid as the 1 × 2 × 480 × 640 grid; so every execution of the idealized kernel program ends with its result at the kernel's result over its words. -/
import proofs.«103364_j55078660604232_1_alg».proof.Proof.KFinal
import Idealize.ShloMosaic.Lib.StableHlo.Run
import Idealize.ShloMosaic.Lib.Pipeline.Value

noncomputable section

namespace Cert.KernelIdeal.Hist

open Idealize.ShloMosaic Idealize.ShloMosaic.TcCoe Idealize.ShloMosaic.ValueIdx Idealize.SL.Sem
open Idealize.ShloMosaic.Pipeline (Dat)
open Cert.KernelIdeal Cert.KernelIdeal.Gen Cert.EventCount

/-- One entry marked: the comparison with zero selects between the words of 1 and 0. -/
private theorem mark_eq (s : EReal) :
    Scalar.select (Ideal.cmp .ogt s (Ideal.ofBits .f32 0x00000000#32)) (Ideal.ofBits .f32 0x3F800000#32)
        (Ideal.ofBits .f32 0x00000000#32)
      = if 0 < s then (1 : EReal) else 0 := by
  rw [Consts.ofBits_zero, Consts.ofBits_one, EReal.coe_one]
  by_cases h : 0 < s
  · rw [if_pos h]; unfold Ideal.cmp Scalar.select; simp [h]
  · rw [if_neg h]; unfold Ideal.cmp Scalar.select; simp [h]

/-- The host tail applied to the launch's array: the result buffer holds the kernel's result over its words. -/
theorem tail_eq (m : (ℓ : Loc nD τ sig) → Buf (Elt Ideal) ℓ) (c : Dev nD) :
    Pipeline.afterTail₀ cfgs (dats m) 0 (V0 m) [hostOps1, hostOps1_1, hostOps1_2] c main_v10
      = voxK (m ((c.tc : Thread nD τ).loc main_arg0)) := by
  -- the array the tail reads is the launch's: each half's histogram
  have hA : Pipeline.withArrays (cfgs 0).spec c (V0 m c) (fun w => (dats m 0 c).arrAt w (cfgs 0).N) (Proc.devRef .tc main_v0)
      = histArr (m ((c.tc : Thread nD τ).loc main_arg0)) :=
    (Pipeline.withArrays_arr spec0 launch0.win.arr_inj c _ _ 1).trans (final_out m c)
  unfold Pipeline.afterTail₀
  simp only [hostOps1, hostOps1_1, hostOps1_2, List.flatten_cons, List.flatten_nil, List.append_nil, List.cons_append, List.nil_append]
  show StableHlo.after _ _ (Proc.devRef .tc main_v10) = _
  open StableHlo in after_results
  rw [hA]
  simp only [StableHlo.TRef.ofBuf, StableHlo.TRef.toBuf, cast_eq]
  -- entry (0, p, y, x) of the result is entry (p, y, x) of the re-laid grid, which is entry (b / 128, b % 128) of the
  -- 4800 × 128 marks, b = 307200·p + 640·y + x the flat cell
  generalize m ((c.tc : Thread nD τ).loc main_arg0) = E
  funext i
  have hp : (i 1).val < 2 := (i 1).isLt
  have hy : (i 2).val < 480 := (i 2).isLt
  have hx : (i 3).val < 640 := (i 3).isLt
  refine (broadcastInDim_apply _ _ _ i (ix3 (i 1) (i 2) (i 3)) ?_).trans ?_
  · intro a; match a with | ⟨0, _⟩ => rfl | ⟨1, _⟩ => rfl | ⟨2, _⟩ => rfl
  refine (shapeCast_apply _ _ (ix3 (i 1) (i 2) (i 3)) (ix2 (rowOf i) (laneOf i)) ?_).trans ?_
  · rw [Shape.rowMajor_val_two, Shape.rowMajor_val_three]
    show (flat i / 128) * 128 + flat i % 128 = ((i 1).val * 480 + (i 2).val) * 640 + (i 3).val
    unfold flat; omega
  -- the two summands at (r, l) are the two halves' histogram entries (r, l)
  have h0 : shapeCast main_v2.ty.shape
        (extractStridedSlice S1x4800x128 ![0, 0, 0] (histArr E) slices_S2x4800x128_S1x4800x128_0_0_0)
        shapeCasts_S1x4800x128_S4800x128 (ix2 (rowOf i) (laneOf i)) = histHalf E 0 (rowOf i) (laneOf i) := by
    refine (shapeCast_apply _ _ (ix2 (rowOf i) (laneOf i)) (ix3 (0 : Fin 1) (rowOf i) (laneOf i)) ?_).trans ?_
    · rw [Shape.rowMajor_val_two, Shape.rowMajor_val_three]
      show (0 * 4800 + (rowOf i).val) * 128 + (laneOf i).val = (rowOf i).val * 128 + (laneOf i).val
      omega
    refine (extractStridedSlice_apply _ _ _ _ (ix3 (0 : Fin 2) (rowOf i) (laneOf i)) ?_).trans ?_
    · intro a
      match a with
      | ⟨0, _⟩ => rfl
      | ⟨1, _⟩ => exact (Nat.zero_add _).symm
      | ⟨2, _⟩ => exact (Nat.zero_add _).symm
    rfl
  have h1 : shapeCast main_v4.ty.shape
        (extractStridedSlice S1x4800x128 ![1, 0, 0] (histArr E) slices_S2x4800x128_S1x4800x128_1_0_0)
        shapeCasts_S1x4800x128_S4800x128 (ix2 (rowOf i) (laneOf i)) = histHalf E 1 (rowOf i) (laneOf i) := by
    refine (shapeCast_apply _ _ (ix2 (rowOf i) (laneOf i)) (ix3 (0 : Fin 1) (rowOf i) (laneOf i)) ?_).trans ?_
    · rw [Shape.rowMajor_val_two, Shape.rowMajor_val_three]
      show (0 * 4800 + (rowOf i).val) * 128 + (laneOf i).val = (rowOf i).val * 128 + (laneOf i).val
      omega
    refine (extractStridedSlice_apply _ _ _ _ (ix3 (1 : Fin 2) (rowOf i) (laneOf i)) ?_).trans ?_
    · intro a
      match a with
      | ⟨0, _⟩ => rfl
      | ⟨1, _⟩ => exact (Nat.zero_add _).symm
      | ⟨2, _⟩ => exact (Nat.zero_add _).symm
    rfl
  -- the mark: 1 where the two halves' sum is positive, else 0
  show Scalar.select (Ideal.cmp .ogt
      (shapeCast main_v2.ty.shape
          (extractStridedSlice S1x4800x128 ![0, 0, 0] (histArr E) slices_S2x4800x128_S1x4800x128_0_0_0)
          shapeCasts_S1x4800x128_S4800x128 (ix2 (rowOf i) (laneOf i))
        + shapeCast main_v4.ty.shape
          (extractStridedSlice S1x4800x128 ![1, 0, 0] (histArr E) slices_S2x4800x128_S1x4800x128_1_0_0)
          shapeCasts_S1x4800x128_S4800x128 (ix2 (rowOf i) (laneOf i)))
      (Ideal.ofBits .f32 0x00000000#32)) (Ideal.ofBits .f32 0x3F800000#32) (Ideal.ofBits .f32 0x00000000#32)
    = if 0 < histK E (rowOf i) (laneOf i) then (1 : EReal) else 0
  rw [h0, h1, mark_eq]
  unfold histK
  rw [Fin.sum_univ_two]

/-- THE KERNEL'S RUN, read: every weakly fair execution of the idealized kernel program terminates with its result at
    the kernel's result over its words and the events array unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10) = voxK (m ((c.tc : Thread nD τ).loc main_arg0))
      ∧ r.2.mem ((c.tc : Thread nD τ).loc main_arg0) = m ((c.tc : Thread nD τ).loc main_arg0) :=
  (θ_run defs _ _).mono (fun r h c =>
    ⟨((h c).2 main_v10 (Pipeline.mem_restRefs_of main_v10 rfl (by decide))).trans (tail_eq m c),
      ((h c).1 0).trans (((dats m 0 c).arrAt_in 0 rfl _).trans ((A_eq m c 0).trans (V_main_arg0 m c)))⟩) (run_main m ρ)

end Cert.KernelIdeal.Hist

end
-- ==== Proof.RValue.lean ====
/- The reference's result term read at an index, over the extended reals: the scatter-add leaves at cell b the number of events whose flat word, read signed, is b; the result is 1 where that count is positive and the count itself elsewhere, re-laid as the 1 × 2 × 480 × 640 grid. -/
import proofs.«103364_j55078660604232_1_alg».proof.Proof.RefRead
import proofs.«103364_j55078660604232_1_alg».proof.Proof.Spec
import proofs.«103364_j55078660604232_1_alg».proof.Proof.Consts
import Idealize.ShloMosaic.Lib.ValueIdx
import Idealize.ShloMosaic.Lib.Pipeline.Value
import Idealize.ShloMosaic.PureOps.Ideal.Laws

noncomputable section

namespace Cert.ReferenceIdeal.Count

open Idealize.ShloMosaic Idealize.ShloMosaic.TcCoe Idealize.ShloMosaic.ValueIdx Idealize.SL.Sem
open Cert.ReferenceIdeal Cert.ReferenceIdeal.Gen Cert.EventCount

/-- Column 0 of event n, read through the transpose, the slice and the reshape. -/
private theorem col0 (x0 : (⟨S16777216x4, .f32⟩ : BufTy).Contents (Elt Ideal)) (n : Fin 16777216) :
    ReadP.val_main_v2 (F := Ideal) x0 (ix1 n) = fld x0 n 0 := by
  rw [ReadP.val_main_v2_apply, ReadP.val_main_v1_apply, ReadP.val_main_v0_apply]
  show x0 _ = x0 _
  congr 1
  funext a
  match a with
  | ⟨0, _⟩ => exact Fin.ext (Nat.mod_eq_of_lt n.isLt)
  | ⟨1, _⟩ => rfl

/-- Column 1 of event n. -/
private theorem col1 (x0 : (⟨S16777216x4, .f32⟩ : BufTy).Contents (Elt Ideal)) (n : Fin 16777216) :
    ReadP.val_main_v4 (F := Ideal) x0 (ix1 n) = fld x0 n 1 := by
  rw [ReadP.val_main_v4_apply, ReadP.val_main_v3_apply, ReadP.val_main_v0_apply]
  show x0 _ = x0 _
  congr 1
  funext a
  match a with
  | ⟨0, _⟩ => exact Fin.ext (Nat.mod_eq_of_lt n.isLt)
  | ⟨1, _⟩ => rfl

/-- Column 3 of event n. -/
private theorem col3 (x0 : (⟨S16777216x4, .f32⟩ : BufTy).Contents (Elt Ideal)) (n : Fin 16777216) :
    ReadP.val_main_v8 (F := Ideal) x0 (ix1 n) = fld x0 n 3 := by
  rw [ReadP.val_main_v8_apply, ReadP.val_main_v7_apply, ReadP.val_main_v0_apply]
  show x0 _ = x0 _
  congr 1
  funext a
  match a with
  | ⟨0, _⟩ => exact Fin.ext (Nat.mod_eq_of_lt n.isLt)
  | ⟨1, _⟩ => rfl

/-- The index word of update n is the reference's flat word of event n. -/
private theorem word_read (x0 : (⟨S16777216x4, .f32⟩ : BufTy).Contents (Elt Ideal)) (n : Fin 16777216) :
    ReadP.val_main_v29 (F := Ideal) x0 (ix1 n) = refWord (fld x0 n 0) (fld x0 n 1) (fld x0 n 3) := by
  rw [ReadP.val_main_v29_apply, ReadP.val_main_v26_apply, ReadP.val_main_v28_apply, ReadP.val_main_v25_apply,
    ReadP.val_main_c_apply, ReadP.val_main_v27_apply, ReadP.val_main_c_6_apply, ReadP.val_main_v22_apply,
    ReadP.val_main_v21_apply, ReadP.val_main_v18_apply, ReadP.val_main_v20_apply, ReadP.val_main_v17_apply,
    ReadP.val_main_v16_apply, ReadP.val_main_cst_2_apply, ReadP.val_main_v19_apply, ReadP.val_main_cst_3_apply,
    ReadP.val_main_v15_apply, ReadP.val_main_v13_apply, ReadP.val_main_v12_apply, ReadP.val_main_cst_0_apply,
    ReadP.val_main_v14_apply, ReadP.val_main_cst_1_apply, col0, col1, col3]
  simp only [Ideal.ofBits_def, Consts.ofBits_640, Consts.ofBits_307200, Consts.ofBits_one, Consts.ofBits_two]
  rfl

/-- For this scatter's dimension numbers the start of update j on the operand's one axis is the index word at
    (j, 0), read signed. -/
private theorem start_eq (idx : IVec S16777216x1 32) (j : S16777216.Idx) (a : Fin 1) :
    scatter_S614400_S16777216x1_S16777216_n_0_0_1.start j idx a = (idx (ix2 (j 0) 0)).toInt := by
  have ha0 : a = 0 := Subsingleton.elim _ _
  subst ha0
  have ha : (0 : Fin 1) ∈ scatter_S614400_S16777216x1_S16777216_n_0_0_1.scatterDimsToOperandDims :=
    List.mem_singleton.2 rfl
  unfold ScatterDims.start
  rw [dif_pos ha]
  congr 2
  funext b
  match b with
  | ⟨0, h0⟩ =>
    unfold ScatterDims.siIdx
    rw [dif_neg (show ¬ ((⟨0, h0⟩ : Fin S16777216x1.rank).val = scatter_S614400_S16777216x1_S16777216_n_0_0_1.indexVectorDim) from Nat.zero_ne_one)]
    unfold ScatterDims.siCoord
    apply Fin.ext
    show (j _).val = (j 0).val
    congr 2
  | ⟨1, h1⟩ => exact Subsingleton.elim (α := Fin 1) _ _

/-- The window coordinate is 0: the operand's one axis is an inserted window axis. -/
private theorem window_eq (j : S16777216.Idx) (a : Fin 1) :
    scatter_S614400_S16777216x1_S16777216_n_0_0_1.window j a = 0 := by
  have ha0 : a = 0 := Subsingleton.elim _ _
  subst ha0
  unfold ScatterDims.window
  rw [dif_neg]
  intro h
  have h2 := (List.mem_filter.1 h).2
  revert h2
  decide

/-- Update j lands on cell b exactly when its index word, read signed, is b. -/
private theorem lands_iff (idx : IVec S16777216x1 32) (j : S16777216.Idx) (b : S614400.Idx) :
    scatter_S614400_S16777216x1_S16777216_n_0_0_1.resultIdx? j idx = some b
      ↔ (idx (ix2 (j 0) 0)).toInt = (((b 0).val : ℕ) : ℤ) := by
  have hb : (b 0).val < 614400 := (b 0).isLt
  unfold ScatterDims.resultIdx?
  split
  · rename_i h
    have h0 := h 0
    rw [start_eq, window_eq] at h0
    constructor
    · intro hs
      have h1 := congrArg Fin.val (congrFun (Option.some.inj hs) 0)
      simp only [start_eq, window_eq] at h1
      omega
    · intro he
      congr 1
      funext a
      have ha0 : a = 0 := Subsingleton.elim (α := Fin 1) _ _
      subst ha0
      apply Fin.ext
      simp only [start_eq, window_eq]
      omega
  · rename_i h
    constructor
    · intro hs; cases hs
    · intro he
      exfalso
      apply h
      intro a
      rw [start_eq, window_eq, he]
      have hs : S614400.size a = 614400 := by
        have ha0 : a = 0 := Subsingleton.elim (α := Fin 1) _ _
        subst ha0; rfl
      rw [hs]
      omega

/-- Update indices are event numbers. -/
private def idxEquiv1 : S16777216.Idx ≃ Fin 16777216 where
  toFun j := j 0
  invFun n := ix1 n
  left_inv j := (eq_ix1 j).symm
  right_inv n := rfl

/-- The scatter-add leaves at cell b the number of events whose flat word, read signed, is b. -/
private theorem scatter_read (x0 : (⟨S16777216x4, .f32⟩ : BufTy).Contents (Elt Ideal)) (b : S614400.Idx) :
    ReadP.val_main_v31 (F := Ideal) x0 b = countR x0 (b 0).val := by
  have h : ReadP.val_main_v31 (F := Ideal) x0 = Ideal.hostScatterAdd scatter_S614400_S16777216x1_S16777216_n_0_0_1
      (ReadP.val_main_v23 (F := Ideal)) (ReadP.val_main_v30 (F := Ideal) x0) (ReadP.val_main_v24 (F := Ideal)) := rfl
  rw [h, Ideal.hostScatterAdd, ReadP.val_main_v23_apply, ReadP.val_main_cst_4_apply, Ideal.ofBits_def, Consts.ofBits_zero,
    zero_add, Finset.sum_filter, countR]
  refine Fintype.sum_equiv idxEquiv1 _ _ (fun j => ?_)
  have hidx : ReadP.idx_main_v30 (ix2 (j 0) (0 : Fin 1)) = ix1 (n := 16777216) (j 0) := by
    funext a
    match a with
    | ⟨0, _⟩ => rfl
  have hw : ReadP.val_main_v30 (F := Ideal) x0 (ix2 (j 0) 0)
      = refWord (fld x0 (j 0) 0) (fld x0 (j 0) 1) (fld x0 (j 0) 3) := by
    rw [ReadP.val_main_v30_apply, hidx]
    exact word_read x0 (j 0)
  have h1 : ReadP.val_main_v24 (F := Ideal) j = 1 := by
    rw [ReadP.val_main_v24_apply, ReadP.val_main_cst_5_apply, Ideal.ofBits_def, Consts.ofBits_one, EReal.coe_one]
  rw [h1]
  show _ = if (refWord (fld x0 (j 0) 0) (fld x0 (j 0) 1) (fld x0 (j 0) 3)).toInt = _ then (1 : EReal) else 0
  rw [← hw]
  exact if_congr (lands_iff _ j b) rfl rfl

/-- The reference's result, as a function of the events array, is its result over its flat word. -/
theorem ref_value (x0 : (⟨S16777216x4, .f32⟩ : BufTy).Contents (Elt Ideal)) :
    Cert.ReferenceIdeal.ReadP.val_main_v36 (F := Ideal) x0 = voxR x0 := by
  funext i
  rw [ReadP.val_main_v36_apply, ReadP.val_main_v35_apply, ReadP.val_main_v33_apply, ReadP.val_main_v34_apply,
    ReadP.val_main_cst_8_apply, ReadP.val_main_v32_apply, ReadP.val_main_cst_7_apply, scatter_read]
  have hflat : ((ReadP.idx_main_v36 i) 0).val = flat i := by
    show (((i 0).val * 2 + (i 1).val) * 480 + (i 2).val) * 640 + (i 3).val
      = 307200 * (i 1).val + 640 * (i 2).val + (i 3).val
    have h0 : (i 0).val < 1 := (i 0).isLt
    omega
  rw [hflat, Ideal.ofBits_def, Ideal.ofBits_def, Consts.ofBits_zero, Consts.ofBits_one, EReal.coe_one]
  show Scalar.select (Ideal.cmp .ogt (countR x0 (flat i)) 0) (1 : EReal) (countR x0 (flat i))
    = if 0 < countR x0 (flat i) then (1 : EReal) else countR x0 (flat i)
  generalize countR x0 (flat i) = c
  by_cases hc : (0 : EReal) < c
  · have h1 : Ideal.cmp .ogt c 0 = 1#1 := by simp [Ideal.cmp, hc]
    rw [if_pos hc, h1, select_one]
  · have h0 : Ideal.cmp .ogt c 0 = 0#1 := by simp [Ideal.cmp, hc]
    rw [if_neg hc, h0, select_zero]

end Cert.ReferenceIdeal.Count

end
-- ==== Proof.WordsKernel.lean ====
/- The kernel's two words of one event under the domain contract: the row word is the cell's quotient by 128 and the lane word its remainder. -/
import proofs.«103364_j55078660604232_1_alg».proof.Proof.Spec
import proofs.«103364_j55078660604232_1_alg».proof.Proof.Consts

noncomputable section

namespace Cert.EventCount

open Idealize.ShloMosaic

/-- Truncation of a real in [0, 640) to a 32-bit word is its floor: no clamp is met. -/
private theorem fptosi_real {r : ℝ} (h0 : 0 ≤ r) (h1 : r < 640) :
    Ideal.fptosi 32 ((r : ℝ) : EReal) = BitVec.ofNat 32 ⌊r⌋₊ := by
  have hf0 : (0 : ℤ) ≤ ⌊r⌋ := Int.floor_nonneg.mpr h0
  have hf1 : ⌊r⌋ < 640 := Int.floor_lt.mpr (by exact_mod_cast h1)
  have hc : ((⌊r⌋₊ : ℕ) : ℤ) = ⌊r⌋ := Int.natCast_floor_eq_floor h0
  rw [Ideal.fptosi, Ideal.toIntClamped_coe, if_pos h0]
  have hm : max (-((2 ^ (32 - 1) : ℕ) : ℤ)) (min (((2 ^ (32 - 1) : ℕ) : ℤ) - 1) ⌊r⌋) = ⌊r⌋ := by
    norm_num
    omega
  rw [hm, ← hc, BitVec.ofInt_natCast]

/-- The arithmetic shift by 7 of a word below 640 is its quotient by 128. -/
private theorem shr7 {a : ℕ} (ha : a < 640) :
    IntOp.shrsi .vector (BitVec.ofNat 32 a) (7#32) = BitVec.ofNat 32 (a / 128) := by
  have hmsb : (BitVec.ofNat 32 a).msb = false := by
    rw [BitVec.msb_eq_false_iff_two_mul_lt, BitVec.toNat_ofNat]
    omega
  rw [IntOp.shrsi, if_pos (by decide), BitVec.sshiftRight_eq', BitVec.sshiftRight_eq_of_msb_false hmsb]
  apply BitVec.eq_of_toNat_eq
  simp [BitVec.toNat_ushiftRight, BitVec.toNat_ofNat, Nat.shiftRight_eq_div_pow]
  omega

/-- The mask with 127 of a word below 640 is its remainder by 128. -/
private theorem and127 {a : ℕ} (ha : a < 640) :
    IntOp.andi (BitVec.ofNat 32 a) (127#32) = BitVec.ofNat 32 (a % 128) := by
  rw [IntOp.andi]
  apply BitVec.eq_of_toNat_eq
  rw [BitVec.toNat_and, BitVec.toNat_ofNat, BitVec.toNat_ofNat, BitVec.toNat_ofNat]
  have : (127 : ℕ) % 2 ^ 32 = 2 ^ 7 - 1 := by norm_num
  rw [this, Nat.and_two_pow_sub_one_eq_mod]
  omega

/-- Under the contract: the three quantities a = ⌊x⌋ < 640, y < 480 and s = [p > 0] that the cell and the
    kernel's words are written over. -/
private theorem ok_words {x y p : EReal} (h : EvOK x y p) :
    ∃ (a yn s : ℕ), a < 640 ∧ yn < 480 ∧ s ≤ 1 ∧ cell x y p = a + 640 * yn + 307200 * s
      ∧ Ideal.fptosi 32 x = BitVec.ofNat 32 a ∧ Ideal.fptosi 32 y = BitVec.ofNat 32 yn
      ∧ Scalar.select (Ideal.cmp .ogt p (Ideal.ofBits .f32 0x00000000#32)) (1#32) (0#32) = BitVec.ofNat 32 s := by
  obtain ⟨xr, yn, rfl, hx0, hx1, rfl, hy, hp⟩ := h
  have ha : ⌊xr⌋₊ < 640 := (Nat.floor_lt hx0).mpr (by exact_mod_cast hx1)
  have hy0 : (0 : ℝ) ≤ (yn : ℝ) := Nat.cast_nonneg yn
  have hy1 : ((yn : ℕ) : ℝ) < 640 := by
    have : ((yn : ℕ) : ℝ) < ((640 : ℕ) : ℝ) := by exact_mod_cast (by omega : yn < 640)
    simpa using this
  have hfy : Ideal.fptosi 32 (((yn : ℕ) : ℝ) : EReal) = BitVec.ofNat 32 yn := by
    rw [fptosi_real hy0 hy1, Nat.floor_natCast]
  rcases hp with rfl | rfl
  · refine ⟨⌊xr⌋₊, yn, 1, ha, hy, le_refl 1, ?_, fptosi_real hx0 hx1, hfy, ?_⟩
    · have hp : (0 : EReal) < ((1 : ℝ) : EReal) := by exact_mod_cast (zero_lt_one : (0 : ℝ) < 1)
      rw [cell, if_pos hp, EReal.toReal_coe, EReal.toReal_coe, Nat.floor_natCast]
    · have hp : (0 : EReal) < ((1 : ℝ) : EReal) := by exact_mod_cast (zero_lt_one : (0 : ℝ) < 1)
      rw [Consts.ofBits_zero]
      show Scalar.select (BitVec.ofBool (decide ((0 : EReal) < ((1 : ℝ) : EReal)))) (1#32) (0#32) = BitVec.ofNat 32 1
      rw [decide_eq_true hp]
      rfl
  · refine ⟨⌊xr⌋₊, yn, 0, ha, hy, Nat.zero_le 1, ?_, fptosi_real hx0 hx1, hfy, ?_⟩
    · have hp : ¬ (0 : EReal) < ((-1 : ℝ) : EReal) := by
        rw [not_lt]; exact_mod_cast (by norm_num : (-1 : ℝ) ≤ 0)
      rw [cell, if_neg hp, EReal.toReal_coe, EReal.toReal_coe, Nat.floor_natCast]
    · have hp : ¬ (0 : EReal) < ((-1 : ℝ) : EReal) := by
        rw [not_lt]; exact_mod_cast (by norm_num : (-1 : ℝ) ≤ 0)
      rw [Consts.ofBits_zero]
      show Scalar.select (BitVec.ofBool (decide ((0 : EReal) < ((-1 : ℝ) : EReal)))) (1#32) (0#32) = BitVec.ofNat 32 0
      rw [decide_eq_false hp]
      rfl

/-- Under the contract an event's cell lies inside the grid of 614400 cells. -/
theorem cell_lt_of_ok {x y p : EReal} (h : EvOK x y p) : cell x y p < 614400 := by
  obtain ⟨a, yn, s, ha, hy, hs, hc, -, -, -⟩ := ok_words h
  omega

/-- Under the contract the kernel's row word is the cell divided by 128. -/
theorem rowWord_of_ok {x y p : EReal} (h : EvOK x y p) : rowWord x y p = BitVec.ofNat 32 (cell x y p / 128) := by
  obtain ⟨a, yn, s, ha, hy, hs, hc, hx, hyw, hsel⟩ := ok_words h
  rw [rowWord, hsel, hx, hyw, shr7 ha, hc, IntOp.muli, IntOp.muli, IntOp.addi, IntOp.addi,
    BitVec.ofNat_mul_ofNat, BitVec.ofNat_mul_ofNat, BitVec.ofNat_add_ofNat, BitVec.ofNat_add_ofNat]
  congr 1
  omega

/-- Under the contract the kernel's lane word is the cell modulo 128. -/
theorem laneWord_of_ok {x y p : EReal} (h : EvOK x y p) : laneWord x = BitVec.ofNat 32 (cell x y p % 128) := by
  obtain ⟨a, yn, s, ha, hy, hs, hc, hx, -, -⟩ := ok_words h
  rw [laneWord, hx, and127 ha, hc]
  congr 1
  omega

end Cert.EventCount

end
-- ==== Proof.BridgeK.lean ====
/- Under the domain contract the kernel's result over its words is the marked grid: the two one-hot entries of an event multiply to the indicator of its cell, and the blocks' events are all the events. -/
import proofs.«103364_j55078660604232_1_alg».proof.Proof.Spec
import proofs.«103364_j55078660604232_1_alg».proof.Proof.WordsKernel

noncomputable section

namespace Cert.EventCount

open Idealize.ShloMosaic Idealize.ShloMosaic.ValueIdx

/-- Two natural numbers below 2^32 are equal exactly when their 32-bit words are. -/
private theorem ofNat_eq_iff_of_lt {a b : ℕ} (ha : a < 2 ^ 32) (hb : b < 2 ^ 32) :
    BitVec.ofNat 32 a = BitVec.ofNat 32 b ↔ a = b := by
  constructor
  · intro hw
    have hn : (BitVec.ofNat 32 a).toNat = (BitVec.ofNat 32 b).toNat := by rw [hw]
    rw [BitVec.toNat_ofNat, BitVec.toNat_ofNat, Nat.mod_eq_of_lt ha, Nat.mod_eq_of_lt hb] at hn
    exact hn
  · intro hab
    rw [hab]

/-- Under the contract an event's contribution to histogram entry (r, l) is the indicator that its cell is
    128·r + l: the row one-hot entry says cell / 128 = r, the lane one-hot entry says cell % 128 = l. -/
private theorem hitK_of_ok {x y p : EReal} (hok : EvOK x y p) (r : Fin 4800) (l : Fin 128) :
    hitK x y p r l = if cell x y p = 128 * r.val + l.val then (1 : EReal) else 0 := by
  have hc : cell x y p < 614400 := cell_lt_of_ok hok
  have hr : r.val < 4800 := r.isLt
  have hl : l.val < 128 := l.isLt
  have hrow : (BitVec.ofNat 32 r.val = BitVec.ofNat 32 (cell x y p / 128)) ↔ r.val = cell x y p / 128 :=
    ofNat_eq_iff_of_lt (by omega) (by omega)
  have hlane : (BitVec.ofNat 32 l.val = BitVec.ofNat 32 (cell x y p % 128)) ↔ l.val = cell x y p % 128 :=
    ofNat_eq_iff_of_lt (by omega) (by omega)
  unfold hitK
  rw [rowWord_of_ok hok, laneWord_of_ok hok]
  by_cases h1 : r.val = cell x y p / 128
  · by_cases h2 : l.val = cell x y p % 128
    · have hcell : cell x y p = 128 * r.val + l.val := by omega
      rw [if_pos (hrow.mpr h1), if_pos (hlane.mpr h2), if_pos hcell, mul_one]
    · have hcell : ¬ cell x y p = 128 * r.val + l.val := by omega
      rw [if_pos (hrow.mpr h1), if_neg (fun hw => h2 (hlane.mp hw)), if_neg hcell, mul_zero]
  · have hcell : ¬ cell x y p = 128 * r.val + l.val := by omega
    rw [if_neg (fun hw => h1 (hrow.mp hw)), if_neg hcell, zero_mul]

/-- Half, block and lane number an event: (g, k, j) ↦ (g·4096 + k)·2048 + j is a bijection onto the events. -/
private def evEquiv : Fin 2 × Fin 4096 × Fin 2048 ≃ Fin 16777216 where
  toFun t := evAt t.1 t.2.1 t.2.2
  invFun n :=
    (⟨n.val / 8388608, by have := n.isLt; omega⟩, ⟨n.val / 2048 % 4096, by omega⟩, ⟨n.val % 2048, by omega⟩)
  left_inv := by
    rintro ⟨g, k, j⟩
    have hg := g.isLt
    have hk := k.isLt
    have hj := j.isLt
    refine Prod.ext (Fin.ext ?_) (Prod.ext (Fin.ext ?_) (Fin.ext ?_))
    · show ((g.val * 4096 + k.val) * 2048 + j.val) / 8388608 = g.val
      omega
    · show ((g.val * 4096 + k.val) * 2048 + j.val) / 2048 % 4096 = k.val
      omega
    · show ((g.val * 4096 + k.val) * 2048 + j.val) % 2048 = j.val
      omega
  right_inv := by
    intro n
    have hn := n.isLt
    apply Fin.ext
    show (n.val / 8388608 * 4096 + n.val / 2048 % 4096) * 2048 + n.val % 2048 = n.val
    omega

/-- Summing over the halves, their blocks and the blocks' lanes is summing over all the events. -/
private theorem sum_blocks (f : Fin 16777216 → EReal) :
    ∑ g : Fin 2, ∑ k : Fin 4096, ∑ j : Fin 2048, f (evAt g k j) = ∑ n : Fin 16777216, f n := by
  rw [← Equiv.sum_comp evEquiv f, Fintype.sum_prod_type]
  apply Finset.sum_congr rfl
  intro g _
  rw [Fintype.sum_prod_type]
  rfl

/-- Under the contract the kernel's histogram entry (r, l) counts the events of cell 128·r + l. -/
theorem histK_eq_count (E : SEvents.Idx → EReal) (h : ∀ n : Fin 16777216, EvOK (fld E n 0) (fld E n 1) (fld E n 3))
    (r : Fin 4800) (l : Fin 128) : histK E r l = count E (128 * r.val + l.val) := by
  unfold histK histHalf count
  rw [sum_blocks (fun n => hitK (fld E n 0) (fld E n 1) (fld E n 3) r l)]
  apply Finset.sum_congr rfl
  intro n _
  exact hitK_of_ok (h n) r l

/-- Under the contract the kernel's result over its words is the marked grid. -/
theorem voxK_eq_vox (E : SEvents.Idx → EReal) (h : ∀ n : Fin 16777216, EvOK (fld E n 0) (fld E n 1) (fld E n 3)) :
    voxK E = vox E := by
  funext i
  unfold voxK vox
  have hflat : 128 * (rowOf i).val + (laneOf i).val = flat i := Nat.div_add_mod (flat i) 128
  rw [histK_eq_count E h (rowOf i) (laneOf i), hflat]

end Cert.EventCount

end
-- ==== Proof.WordRef.lean ====
/- The reference's flat word of one event under the domain contract: it is the cell. -/
import proofs.«103364_j55078660604232_1_alg».proof.Proof.Spec

noncomputable section

namespace Cert.EventCount

open Idealize.ShloMosaic

/-- (1 + 1) / 2 = 1 and (-1 + 1) / 2 = 0 in the extended reals. -/
private theorem half_pos : Ideal.div (((1 : ℝ) : EReal) + ((1 : ℝ) : EReal)) ((2 : ℝ) : EReal) = (((1 : ℕ) : ℝ) : EReal) := by
  rw [Ideal.div_coe (by norm_num), ← EReal.coe_add, ← EReal.coe_mul]
  norm_num

private theorem half_neg : Ideal.div (((-1 : ℝ) : EReal) + ((1 : ℝ) : EReal)) ((2 : ℝ) : EReal) = (((0 : ℕ) : ℝ) : EReal) := by
  rw [Ideal.div_coe (by norm_num), ← EReal.coe_add, ← EReal.coe_mul]
  norm_num

/-- The truncation of xr + 640·yn + 307200·b, for 0 ≤ xr < 640, yn < 480, b ≤ 1, is the word of
    ⌊xr⌋ + 640·yn + 307200·b: the sum is a non-negative real, its floor is below 2³¹, the clamp is idle. -/
private theorem trunc_word (xr : ℝ) (yn b : ℕ) (hx0 : 0 ≤ xr) (hx1 : xr < 640) (hy : yn < 480) (hb : b ≤ 1) :
    Ideal.fptosi 32 ((((xr : ℝ) : EReal) + ((640 : ℝ) : EReal) * (((yn : ℕ) : ℝ) : EReal))
        + ((307200 : ℝ) : EReal) * (((b : ℕ) : ℝ) : EReal))
      = BitVec.ofNat 32 (⌊xr⌋₊ + 640 * yn + 307200 * b) := by
  have hsum : (((xr : ℝ) : EReal) + ((640 : ℝ) : EReal) * (((yn : ℕ) : ℝ) : EReal))
        + ((307200 : ℝ) : EReal) * (((b : ℕ) : ℝ) : EReal)
      = ((xr + ((640 * yn + 307200 * b : ℕ) : ℝ) : ℝ) : EReal) := by
    rw [← EReal.coe_mul, ← EReal.coe_mul, ← EReal.coe_add, ← EReal.coe_add]
    congr 1
    push_cast
    ring
  have hnn : (0 : ℝ) ≤ xr + ((640 * yn + 307200 * b : ℕ) : ℝ) := by positivity
  have hfloor : ⌊xr + ((640 * yn + 307200 * b : ℕ) : ℝ)⌋ = ((⌊xr⌋₊ + 640 * yn + 307200 * b : ℕ) : ℤ) := by
    rw [Int.floor_add_natCast, ← Int.natCast_floor_eq_floor hx0]
    push_cast
    ring
  have hfl : ⌊xr⌋₊ < 640 := (Nat.floor_lt hx0).2 (by exact_mod_cast hx1)
  rw [hsum, Ideal.fptosi, Ideal.toIntClamped_coe, if_pos hnn, hfloor]
  have hlo : (-((2 ^ (32 - 1) : ℕ) : ℤ)) ≤ ((⌊xr⌋₊ + 640 * yn + 307200 * b : ℕ) : ℤ) := by
    have : (0 : ℤ) ≤ ((⌊xr⌋₊ + 640 * yn + 307200 * b : ℕ) : ℤ) := Int.natCast_nonneg _
    norm_num
    omega
  have hhi : ((⌊xr⌋₊ + 640 * yn + 307200 * b : ℕ) : ℤ) ≤ ((2 ^ (32 - 1) : ℕ) : ℤ) - 1 := by
    norm_num
    omega
  rw [min_eq_right hhi, max_eq_right hlo]
  exact BitVec.ofInt_natCast _ _

/-- A word below 614400 is not negative read signed: the negative-index shift leaves it. -/
private theorem select_word (m : ℕ) (hm : m < 614400) :
    Scalar.select (IntOp.cmpi .slt (BitVec.ofNat 32 m) (0#32)) (IntOp.addi (BitVec.ofNat 32 m) (614400#32))
      (BitVec.ofNat 32 m) = BitVec.ofNat 32 m := by
  have hslt : (BitVec.ofNat 32 m).slt (0#32) = false := by
    rw [BitVec.slt, decide_eq_false_iff_not, not_lt]
    have hnat : (BitVec.ofNat 32 m).toNat = m := by
      rw [BitVec.toNat_ofNat]; exact Nat.mod_eq_of_lt (by omega)
    have hint : (BitVec.ofNat 32 m).toInt = (m : ℤ) := by
      rw [BitVec.toInt_eq_toNat_of_lt (by rw [hnat]; omega), hnat]
    rw [hint]
    simp
  simp [Scalar.select, IntOp.cmpi, hslt]

/-- Under the contract the reference's flat word is the cell: x + 640·y + 307200·((p + 1)/2) is a non-negative real
    whose floor is ⌊x⌋ + 640·y + 307200·[p > 0], below 2³¹, so neither the clamp nor the negative-index shift acts. -/
theorem refWord_of_ok {x y p : EReal} (h : EvOK x y p) : refWord x y p = BitVec.ofNat 32 (cell x y p) := by
  obtain ⟨xr, yn, rfl, hx0, hx1, rfl, hy, hp⟩ := h
  have hfl : ⌊xr⌋₊ < 640 := (Nat.floor_lt hx0).2 (by exact_mod_cast hx1)
  rcases hp with rfl | rfl
  · have hcell : cell ((xr : ℝ) : EReal) (((yn : ℕ) : ℝ) : EReal) ((1 : ℝ) : EReal) = ⌊xr⌋₊ + 640 * yn + 307200 * 1 := by
      have : (0 : EReal) < ((1 : ℝ) : EReal) := by exact_mod_cast one_pos
      unfold cell
      rw [EReal.toReal_coe, EReal.toReal_coe, Nat.floor_natCast, if_pos this]
    rw [hcell]
    unfold refWord
    rw [half_pos, trunc_word xr yn 1 hx0 hx1 hy le_rfl]
    exact select_word _ (by omega)
  · have hcell : cell ((xr : ℝ) : EReal) (((yn : ℕ) : ℝ) : EReal) ((-1 : ℝ) : EReal) = ⌊xr⌋₊ + 640 * yn + 307200 * 0 := by
      have : ¬ (0 : EReal) < ((-1 : ℝ) : EReal) := by
        rw [not_lt]; exact_mod_cast (by norm_num : (-1 : ℝ) ≤ 0)
      unfold cell
      rw [EReal.toReal_coe, EReal.toReal_coe, Nat.floor_natCast, if_neg this]
    rw [hcell]
    unfold refWord
    rw [half_neg, trunc_word xr yn 0 hx0 hx1 hy (by omega)]
    exact select_word _ (by omega)

end Cert.EventCount

end
-- ==== Proof.BridgeR.lean ====
/- Under the domain contract the reference's result over its word is the marked grid: its count is the count of the cell, and a count that is not positive is zero. -/
import proofs.«103364_j55078660604232_1_alg».proof.Proof.Spec
import proofs.«103364_j55078660604232_1_alg».proof.Proof.WordsKernel
import proofs.«103364_j55078660604232_1_alg».proof.Proof.WordRef

noncomputable section

namespace Cert.EventCount

open Idealize.ShloMosaic Idealize.ShloMosaic.ValueIdx

/-- A natural number below 2^31, written as a 32-bit word and read back signed, is itself. -/
private theorem toInt_ofNat_of_lt (c : ℕ) (hc : c < 614400) : (BitVec.ofNat 32 c).toInt = (c : ℤ) := by
  have hmod : c % 2 ^ 32 = c := Nat.mod_eq_of_lt (by omega)
  rw [BitVec.toInt_eq_toNat_cond, BitVec.toNat_ofNat, hmod]
  have hlt : 2 * c < 2 ^ 32 := by omega
  rw [if_pos hlt]

/-- A count of events is not negative: it is a sum of zeros and ones. -/
private theorem count_nonneg (E : SEvents.Idx → EReal) (b : ℕ) : 0 ≤ count E b := by
  unfold count
  apply Finset.sum_nonneg
  intro n _
  split_ifs
  · exact zero_le_one
  · exact le_refl _

/-- Under the contract the reference's count of a cell inside the grid is the count of that cell. -/
theorem countR_eq_count (E : SEvents.Idx → EReal) (h : ∀ n : Fin 16777216, EvOK (fld E n 0) (fld E n 1) (fld E n 3))
    (b : ℕ) (hb : b < 614400) : countR E b = count E b := by
  unfold countR count
  apply Finset.sum_congr rfl
  intro n _
  have hok := h n
  have hc : cell (fld E n 0) (fld E n 1) (fld E n 3) < 614400 := cell_lt_of_ok hok
  rw [refWord_of_ok hok, toInt_ofNat_of_lt _ hc]
  by_cases hcb : cell (fld E n 0) (fld E n 1) (fld E n 3) = b
  · rw [if_pos hcb, if_pos (by rw [hcb])]
  · rw [if_neg hcb, if_neg (fun hz => hcb (Nat.cast_injective hz))]

/-- Under the contract the reference's result over its word is the marked grid. -/
theorem voxR_eq_vox (E : SEvents.Idx → EReal) (h : ∀ n : Fin 16777216, EvOK (fld E n 0) (fld E n 1) (fld E n 3)) :
    voxR E = vox E := by
  funext i
  unfold voxR vox
  rw [countR_eq_count E h (flat i) (flat_lt i)]
  by_cases hp : 0 < count E (flat i)
  · rw [if_pos hp, if_pos hp]
  · rw [if_neg hp, if_neg hp]
    exact le_antisymm (not_lt.mp hp) (count_nonneg E (flat i))

end Cert.EventCount

end
-- ==== Proof.lean ====
/- The certificate of the event-count voxel grid: the kernel marks, through one-hot matrix products accumulated over
   the grid, exactly the cells the reference's scatter-add counts at least one event in. The three frames are the
   generated ones (the reference's its run); the ideal pass rewrote nothing; and under the precondition, which states
   the domain contract of the events (x in [0, 640), y a whole number below 480, p of absolute value 1), both
   idealized programs end with the marked grid of the events array. -/
import proofs.«103364_j55078660604232_1_alg».proof.Defs
import proofs.«103364_j55078660604232_1_alg».proof.Proof.Gen.Kernel
import proofs.«103364_j55078660604232_1_alg».proof.Proof.Gen.Kernel.Frame
import proofs.«103364_j55078660604232_1_alg».proof.Proof.Gen.KernelIdeal
import proofs.«103364_j55078660604232_1_alg».proof.Proof.Gen.KernelIdeal.Frame
import proofs.«103364_j55078660604232_1_alg».proof.Proof.Gen.ReferenceIdeal
import proofs.«103364_j55078660604232_1_alg».proof.Proof.Gen.Pre_finite_inputs
import proofs.«103364_j55078660604232_1_alg».proof.Proof.RefRun
import proofs.«103364_j55078660604232_1_alg».proof.Proof.RefRead
import proofs.«103364_j55078660604232_1_alg».proof.Proof.Consts
import proofs.«103364_j55078660604232_1_alg».proof.Proof.Spec
import proofs.«103364_j55078660604232_1_alg».proof.Proof.PreDecode
import proofs.«103364_j55078660604232_1_alg».proof.Proof.KTail
import proofs.«103364_j55078660604232_1_alg».proof.Proof.RValue
import proofs.«103364_j55078660604232_1_alg».proof.Proof.BridgeK
import proofs.«103364_j55078660604232_1_alg».proof.Proof.BridgeR
import Idealize.ShloMosaic.Adequacy
import Idealize.ShloMosaic.Init

noncomputable section

namespace Cert.Proof

open Idealize.ShloMosaic Idealize.SL.Sem Cert.EventCount

/-- The word-level kernel program's frame: the generated class R frame. -/
theorem frame_k : Cert.frame_Kernel := fun m ρ _ => Cert.Kernel.Gen.frame m ρ

/-- The idealized kernel program's frame: the generated class R frame. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Under the precondition every event satisfies the domain contract, so the kernel's result over its words and the
    reference's result over its word are both the marked grid of the events array the two memories share. -/
theorem algebraic : Cert.algebraic_KernelIdeal_ReferenceIdeal := by
  intro m ρ m' ρ' hpre hagree
  have hE : ∀ c : Dev Cert.KernelIdeal.nD, ∀ n : Fin 16777216,
      EvOK (fld (m ((c.tc : Thread Cert.KernelIdeal.nD Cert.KernelIdeal.τ).loc Cert.KernelIdeal.main_arg0)) n 0)
        (fld (m ((c.tc : Thread Cert.KernelIdeal.nD Cert.KernelIdeal.τ).loc Cert.KernelIdeal.main_arg0)) n 1)
        (fld (m ((c.tc : Thread Cert.KernelIdeal.nD Cert.KernelIdeal.τ).loc Cert.KernelIdeal.main_arg0)) n 3) :=
    fun c => ok_of_pre _ (hpre c)
  refine ⟨fun c => vox (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (voxK_eq_vox _ (hE c)), (h c).2⟩) (Cert.KernelIdeal.Hist.run m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v36_eq, Cert.ReferenceIdeal.Count.ref_value, hagree c]
    exact voxR_eq_vox _ (hE c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
